-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_cst_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_cst_8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_cst_15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) (main_arg2 : IVec S16384 32) (main_arg3 : IVec S16384x4096 1) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S256x4096 : Shape := ⟨2, ![256, 4096]⟩
abbrev S256x1 : Shape := ⟨2, ![256, 1]⟩
abbrev S256 : Shape := ⟨1, ![256]⟩

abbrev nBuf : Space → Nat
  | .hbm => 107
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384, .i32⟩
  | .hbm, ⟨3, _⟩ => ⟨S16384x4096, .i1⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S16384, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S_, .i32⟩
  | .hbm, ⟨46, _⟩ => ⟨S16384x1, .i32⟩
  | .hbm, ⟨47, _⟩ => ⟨S16384x1, .i32⟩
  | .hbm, ⟨48, _⟩ => ⟨S16384x1, .i32⟩
  | .hbm, ⟨49, _⟩ => ⟨S16384x1x1, .i32⟩
  | .hbm, ⟨50, _⟩ => ⟨S1, .i32⟩
  | .hbm, ⟨51, _⟩ => ⟨S_, .i32⟩
  | .hbm, ⟨52, _⟩ => ⟨S16384x1x1, .i32⟩
  | .hbm, ⟨53, _⟩ => ⟨S16384x1x1, .i1⟩
  | .hbm, ⟨54, _⟩ => ⟨S1x1x1, .i32⟩
  | .hbm, ⟨55, _⟩ => ⟨S16384x1x1, .i32⟩
  | .hbm, ⟨56, _⟩ => ⟨S16384x1x1, .i1⟩
  | .hbm, ⟨57, _⟩ => ⟨S16384x1x1, .i1⟩
  | .hbm, ⟨58, _⟩ => ⟨S_, .i1⟩
  | .hbm, ⟨59, _⟩ => ⟨S16384x1, .i1⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .i32⟩
  | .hbm, ⟨65, _⟩ => ⟨S16384x1, .i32⟩
  | .hbm, ⟨66, _⟩ => ⟨S16384x1, .i1⟩
  | .hbm, ⟨67, _⟩ => ⟨S_, .i32⟩
  | .hbm, ⟨68, _⟩ => ⟨S16384x1, .i32⟩
  | .hbm, ⟨69, _⟩ => ⟨S16384x1, .i32⟩
  | .hbm, ⟨70, _⟩ => ⟨S16384x1, .i32⟩
  | .hbm, ⟨71, _⟩ => ⟨S16384x1x1, .i32⟩
  | .hbm, ⟨72, _⟩ => ⟨S1, .i32⟩
  | .hbm, ⟨73, _⟩ => ⟨S_, .i32⟩
  | .hbm, ⟨74, _⟩ => ⟨S16384x1x1, .i32⟩
  | .hbm, ⟨75, _⟩ => ⟨S16384x1x1, .i1⟩
  | .hbm, ⟨76, _⟩ => ⟨S1x1x1, .i32⟩
  | .hbm, ⟨77, _⟩ => ⟨S16384x1x1, .i32⟩
  | .hbm, ⟨78, _⟩ => ⟨S16384x1x1, .i1⟩
  | .hbm, ⟨79, _⟩ => ⟨S16384x1x1, .i1⟩
  | .hbm, ⟨80, _⟩ => ⟨S_, .i1⟩
  | .hbm, ⟨81, _⟩ => ⟨S16384x1, .i1⟩
  | .hbm, ⟨82, _⟩ => ⟨S16384x1, .i1⟩
  | .hbm, ⟨83, _⟩ => ⟨S_, .i1⟩
  | .hbm, ⟨84, _⟩ => ⟨S16384x1, .i1⟩
  | .hbm, ⟨85, _⟩ => ⟨S16384x1, .i1⟩
  | .hbm, ⟨86, _⟩ => ⟨S16384x1, .f32⟩
  | .hbm, ⟨87, _⟩ => ⟨S16384, .f32⟩
  | .hbm, ⟨88, _⟩ => ⟨S16384x1, .f32⟩
  | .hbm, ⟨89, _⟩ => ⟨S16384x4096, .i32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .i32⟩
  | .local _ .vmem, ⟨5, _⟩ => ⟨S256x4096, .i32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v7 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v8 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_c_4 : Ref sig .tc := ⟨.hbm, 83, rfl⟩
abbrev main_call3_v14 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14_0 : Ref sig .tc := ⟨.hbm, 90, rfl⟩
abbrev main_v14_1 : Ref sig .tc := ⟨.hbm, 91, rfl⟩
abbrev main_cst : Ref sig .tc := ⟨.hbm, 92, rfl⟩
abbrev main_v15 : Ref sig .tc := ⟨.hbm, 93, rfl⟩
abbrev main_cst_3 : Ref sig .tc := ⟨.hbm, 94, rfl⟩
abbrev main_v16 : Ref sig .tc := ⟨.hbm, 95, rfl⟩
abbrev main_cst_4 : Ref sig .tc := ⟨.hbm, 96, rfl⟩
abbrev main_v17 : Ref sig .tc := ⟨.hbm, 97, rfl⟩
abbrev main_cst_5 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst_6 : Ref sig .tc := ⟨.hbm, 102, rfl⟩
abbrev main_cst_7 : Ref sig .tc := ⟨.hbm, 103, rfl⟩
abbrev main_v21 : Ref sig .tc := ⟨.hbm, 104, rfl⟩
abbrev main_v22 : Ref sig .tc := ⟨.hbm, 105, rfl⟩
abbrev main_cst_8 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16384 : S_.BroadcastsInDim S16384 (![] : Fin 0 → Fin S16384.rank)
  shapeCasts_S16384_S16384x1 : S16384.ShapeCasts S16384x1
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  broadcasts_S256x1_S256x4096 : S256x1.Broadcasts S256x4096
  reduces_S256x4096_S256 : S256x4096.Reduces [1] S256
  shapeCasts_S256_S256x1 : S256.ShapeCasts S256x1
  reducesTo_S16384x1_S_d0_1 : S16384x1.ReducesTo [0, 1] S_
  gather_S16384x4096_S16384x1x1_S16384x1_n_1_0_0_1_2_11_wf : GatherDims.WF S16384x4096 S16384x1x1 S16384x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .i32 = 32 ∨ (Rect.block (s := S16384x4096) S256x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S16384x1.size a
  hwx0_4 : ∀ i : grid0.Coords, EltTy.bits .f32 = 32 ∨ (Rect.block (s := S16384x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S16384x1.size a
  hwx0_5 : ∀ i : grid0.Coords, EltTy.bits .f32 = 32 ∨ (Rect.block (s := S16384x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S16384x1.size a
  hwx0_6 : ∀ i : grid0.Coords, EltTy.bits .f32 = 32 ∨ (Rect.block (s := S16384x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S16384x1.size a
  hwx0_7 : ∀ i : grid0.Coords, EltTy.bits .f32 = 32 ∨ (Rect.block (s := S16384x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S16384x1.size a
  hwx0_8 : ∀ i : grid0.Coords, EltTy.bits .f32 = 32 ∨ (Rect.block (s := S16384x1) S256x1.size (cc0_transform_8 i) (hinb0_8 i)).WholeWords (EltTy.packing .f32)

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S4096 : Shape := ⟨1, ![4096]⟩
abbrev S1x4096 : Shape := ⟨2, ![1, 4096]⟩

abbrev nBuf : Space → Nat
  | .hbm => 122
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384, .i32⟩
  | .hbm, ⟨3, _⟩ => ⟨S16384x4096, .i1⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S16384, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .i1⟩
  | .hbm, ⟨39, _⟩ => ⟨S_, .i1⟩
  | .hbm, ⟨40, _⟩ => ⟨S16384x1, .i1⟩
  | .hbm, ⟨41, _⟩ => ⟨S16384x1, .i1⟩
  | .hbm, ⟨42, _⟩ => ⟨S16384, .i1⟩
  | .hbm, ⟨43, _⟩ => ⟨S16384, .i1⟩
  | .hbm, ⟨44, _⟩ => ⟨S16384x1, .i32⟩
  | .hbm, ⟨45, _⟩ => ⟨S_, .i32⟩
  | .hbm, ⟨46, _⟩ => ⟨S16384x1, .i32⟩
  | .hbm, ⟨47, _⟩ => ⟨S16384x1, .i1⟩
  | .hbm, ⟨48, _⟩ => ⟨S_, .i32⟩
  | .hbm, ⟨49, _⟩ => ⟨S16384x1, .i32⟩
  | .hbm, ⟨50, _⟩ => ⟨S16384x1, .i32⟩
  | .hbm, ⟨51, _⟩ => ⟨S16384x1, .i32⟩
  | .hbm, ⟨52, _⟩ => ⟨S16384x1x1, .i32⟩
  | .hbm, ⟨53, _⟩ => ⟨S1, .i32⟩
  | .hbm, ⟨54, _⟩ => ⟨S_, .i32⟩
  | .hbm, ⟨55, _⟩ => ⟨S16384x1x1, .i32⟩
  | .hbm, ⟨56, _⟩ => ⟨S16384x1x1, .i1⟩
  | .hbm, ⟨57, _⟩ => ⟨S1x1x1, .i32⟩
  | .hbm, ⟨58, _⟩ => ⟨S16384x1x1, .i32⟩
  | .hbm, ⟨59, _⟩ => ⟨S16384x1x1, .i1⟩
  | .hbm, ⟨60, _⟩ => ⟨S16384x1x1, .i1⟩
  | .hbm, ⟨61, _⟩ => ⟨S_, .i1⟩
  | .hbm, ⟨62, _⟩ => ⟨S16384x1, .i1⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S4096, .i32⟩
  | .hbm, ⟨68, _⟩ => ⟨S1x4096, .i32⟩
  | .hbm, ⟨69, _⟩ => ⟨S16384x1, .i32⟩
  | .hbm, ⟨70, _⟩ => ⟨S16384x4096, .i32⟩
  | .hbm, ⟨71, _⟩ => ⟨S16384x4096, .i32⟩
  | .hbm, ⟨72, _⟩ => ⟨S16384x4096, .i1⟩
  | .hbm, ⟨73, _⟩ => ⟨S16384x4096, .i1⟩
  | .hbm, ⟨74, _⟩ => ⟨S16384x4096, .f32⟩
  | .hbm, ⟨75, _⟩ => ⟨S16384x4096, .f32⟩
  | .hbm, ⟨76, _⟩ => ⟨S_, .f32⟩
  | .hbm, ⟨77, _⟩ => ⟨S16384x4096, .f32⟩
  | .hbm, ⟨78, _⟩ => ⟨S16384x4096, .f32⟩
  | .hbm, ⟨79, _⟩ => ⟨S_, .f32⟩
  | .hbm, ⟨80, _⟩ => ⟨S16384x4096, .f32⟩
  | .hbm, ⟨81, _⟩ => ⟨S16384x4096, .f32⟩
  | .hbm, ⟨82, _⟩ => ⟨S16384x4096, .f32⟩
  | .hbm, ⟨83, _⟩ => ⟨S16384x4096, .i32⟩
  | .hbm, ⟨84, _⟩ => ⟨S_, .i32⟩
  | .hbm, ⟨85, _⟩ => ⟨S16384, .i32⟩
  | .hbm, ⟨86, _⟩ => ⟨S16384x4096, .f32⟩
  | .hbm, ⟨87, _⟩ => ⟨S16384x4096, .f32⟩
  | .hbm, ⟨88, _⟩ => ⟨S_, .f32⟩
  | .hbm, ⟨89, _⟩ => ⟨S16384, .f32⟩
  | .hbm, ⟨90, _⟩ => ⟨S_, .i32⟩
  | .hbm, ⟨91, _⟩ => ⟨S16384, .i32⟩
  | .hbm, ⟨92, _⟩ => ⟨S16384, .i32⟩
  | .hbm, ⟨93, _⟩ => ⟨S16384, .f32⟩
  | .hbm, ⟨94, _⟩ => ⟨S16384, .f32⟩
  | .hbm, ⟨95, _⟩ => ⟨S_, .i32⟩
  | .hbm, ⟨96, _⟩ => ⟨S16384, .i32⟩
  | .hbm, ⟨97, _⟩ => ⟨S16384, .i1⟩
  | .hbm, ⟨98, _⟩ => ⟨S16384, .i1⟩
  | .hbm, ⟨99, _⟩ => ⟨S_, .f32⟩
  | .hbm, ⟨100, _⟩ => ⟨S_, .f32⟩
  | .hbm, ⟨101, _⟩ => ⟨S16384, .f32⟩
  | .hbm, ⟨102, _⟩ => ⟨S16384, .f32⟩
  | .hbm, ⟨103, _⟩ => ⟨S16384, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i1⟩
  | .hbm, ⟨108, _⟩ => ⟨S_, .f32⟩
  | .hbm, ⟨109, _⟩ => ⟨S_, .f32⟩
  | .hbm, ⟨110, _⟩ => ⟨S_, .i32⟩
  | .hbm, ⟨111, _⟩ => ⟨S_, .i32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_c_4 : Ref sig .tc := ⟨.hbm, 39, rfl⟩
abbrev main_call1_v14 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst : Ref sig .tc := ⟨.hbm, 76, rfl⟩
abbrev main_v21 : Ref sig .tc := ⟨.hbm, 77, rfl⟩
abbrev main_v22 : Ref sig .tc := ⟨.hbm, 78, rfl⟩
abbrev main_call3_cst : Ref sig .tc := ⟨.hbm, 79, rfl⟩
abbrev main_call3_v0 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_c_3 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_4 : Ref sig .tc := ⟨.hbm, 88, rfl⟩
abbrev main_v29 : Ref sig .tc := ⟨.hbm, 89, rfl⟩
abbrev main_c_5 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_c_6 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_cst_7 : Ref sig .tc := ⟨.hbm, 99, rfl⟩
abbrev main_call4_v0 : Ref sig .tc := ⟨.hbm, 100, rfl⟩
abbrev main_call4_v1 : Ref sig .tc := ⟨.hbm, 101, rfl⟩
abbrev main_v37 : Ref sig .tc := ⟨.hbm, 102, rfl⟩
abbrev main_v38 : Ref sig .tc := ⟨.hbm, 103, rfl⟩
abbrev main_c_8 : Ref sig .tc := ⟨.hbm, 104, rfl⟩
abbrev main_v39 : Ref sig .tc := ⟨.hbm, 105, rfl⟩
abbrev main_c_9 : Ref sig .tc := ⟨.hbm, 106, rfl⟩
abbrev main_v40 : Ref sig .tc := ⟨.hbm, 107, rfl⟩
abbrev main_cst_10 : Ref sig .tc := ⟨.hbm, 108, rfl⟩
abbrev main_v41 : Ref sig .tc := ⟨.hbm, 109, rfl⟩
abbrev main_c_11 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_cst_12 : Ref sig .tc := ⟨.hbm, 114, rfl⟩
abbrev main_v45 : Ref sig .tc := ⟨.hbm, 115, rfl⟩
abbrev main_v46 : Ref sig .tc := ⟨.hbm, 116, rfl⟩
abbrev main_cst_13 : Ref sig .tc := ⟨.hbm, 117, rfl⟩
abbrev main_cst_14 : Ref sig .tc := ⟨.hbm, 118, rfl⟩
abbrev main_v47 : Ref sig .tc := ⟨.hbm, 119, rfl⟩
abbrev main_v48 : Ref sig .tc := ⟨.hbm, 120, rfl⟩
abbrev main_cst_15 : Ref sig .tc := ⟨.hbm, 121, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  shapeCasts_S16384x1_S16384 : S16384x1.ShapeCasts S16384
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  natLt_1_32 : 1 < 32
  reducesTo_S16384x4096_S16384_d1 : S16384x4096.ReducesTo [1] S16384
  reducesTo_S16384_S_d0 : S16384.ReducesTo [0] S_
  gather_S16384x4096_S16384x1x1_S16384x1_n_1_0_0_1_2_11_wf : GatherDims.WF S16384x4096 S16384x1x1 S16384x1 [] [1] [0] [1] [0] 2 ![1, 1]

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

class Facts : Prop extends Facts₀ where

variable [Facts]
-- ==== Proof.Spec.lean ====
/-
  THE MARGIN-RANKING LOSS, ROW BY ROW, as two programs compute it over the extended reals.

  Inputs: scores `s` and negative weights `w` over [16384, 4096], a ground-truth index word `gi r` per row, a validity
  bit `vb` per entry. Row `r`'s ground-truth column `gcol r` is its index word clipped into [0, 4095].

  THE KERNEL'S ROW. With p = s (r, gcol r), the margin M and v j ∈ {0, 1} the validity of entry (r, j):
    numerator   Σ_j max ((M − p) + s (r, j)) 0 · w (r, j) · v j  −  v (gcol r) · (M · w (r, gcol r))
    count       Σ_j v j  −  v (gcol r)
  The subtracted terms are the ground-truth column's own contribution to each sum (its hinge is max (M − p + p) 0 = M).
  THE REFERENCE'S ROW masks that column out instead: n j = v j ∧ (j ≠ gcol r),
    numerator   Σ_j max (M − (p − s (r, j))) 0 · w (r, j) · n j
    count       #{ j | n j }
  Both give  numerator / max count 1  when the row's ground truth is in range and valid and the count is positive, else 0;
  both then average the row losses over the number of rows whose ground truth is in range and valid.
-/
import Idealize.ShloMosaic.PureOps.Ideal
import Idealize.ShloMosaic.Lib.ValueIdx
import Idealize.ShloMosaic.Lib.ValueIdxRank1

noncomputable section

open scoped BigOperators

namespace Cert.Mirl

open Idealize.ShloMosaic Idealize.ShloMosaic.ValueIdx

/-- Rows × columns, and rows. -/
abbrev SBN : Shape := ⟨2, ![16384, 4096]⟩
abbrev SB : Shape := ⟨1, ![16384]⟩

/-- The margin `0.2`, the threshold `0.5`, the floor `1.0` of a denominator and the rejection weight `0.1` (which
    multiplies a zero), each as the binary32 word the programs spell. -/
def margin : EReal := Ideal.ofBits .f32 0x3E4CCCCD#32
def half : EReal := Ideal.ofBits .f32 0x3F000000#32
def one : EReal := Ideal.ofBits .f32 0x3F800000#32
def lambdaRej : EReal := Ideal.ofBits .f32 0x3DCCCCCD#32

/-- A bit as the real number 0 or 1. -/
def b01 (b : BitVec 1) : EReal := if b = 1#1 then 1 else 0

/-- A widened validity word as the real number 0 (the zero word) or 1. -/
def w01 (v : BitVec 32) : EReal := if v = 0#32 then 0 else 1

/-- A signed index word clipped into [0, 4095]: `min 4095 (max 0 x)`. -/
def clipw (x : BitVec 32) : BitVec 32 := IntOp.minsi 4095#32 (IntOp.maxsi 0#32 x)

/-- `0 ≤ x < 4096`, signed, as a bit. -/
def inrw (x : BitVec 32) : BitVec 1 := IntOp.andi (IntOp.cmpi .sge x 0#32) (IntOp.cmpi .slt x 4096#32)

/-! ## One row of the kernel's body, over the row's own numbers

`P`, `WG`, `GV`, `IR`: the score, the weight and the validity (as 0 or 1) at the ground-truth column, and whether the
index was in range (as 0 or 1); `sr`, `wr`, `vf`: the row's scores, weights and validities (as 0 or 1). -/

def bodyNum (P WG GV : EReal) (sr wr vf : Fin 4096 → EReal) : EReal :=
  (∑ j : Fin 4096, max ((margin - P) + sr j) 0 * wr j * vf j) - GV * (margin * WG)
def bodyCnt (GV : EReal) (vf : Fin 4096 → EReal) : EReal := (∑ j : Fin 4096, vf j) - GV
def bodyOkP (GV IR : EReal) : Prop := half < IR ∧ half < GV
instance (GV IR : EReal) : Decidable (bodyOkP GV IR) := by unfold bodyOkP; infer_instance
def bodyLoss (P WG GV IR : EReal) (sr wr vf : Fin 4096 → EReal) : EReal :=
  if bodyOkP GV IR ∧ 0 < bodyCnt GV vf then Ideal.div (bodyNum P WG GV sr wr vf) (max (bodyCnt GV vf) one) else 0
def bodyOk (GV IR : EReal) : EReal := if bodyOkP GV IR then 1 else 0

section
variable (s w : FVec Ideal SBN .f32) (gi : IVec SB 32) (vb : IVec SBN 1)

/-- Row `r`'s ground-truth column: its index word clipped, read as the gather reads a start index (signed, then
    clamped into the axis). -/
def gcol (r : Fin 16384) : Fin 4096 := ⟨min (clipw (gi (ix1 r))).toInt.toNat 4095, by omega⟩

/-- The score, the weight and the validity bit at the ground-truth column. -/
def pos (r : Fin 16384) : EReal := s (ix2 r (gcol gi r))
def wgt (r : Fin 16384) : EReal := w (ix2 r (gcol gi r))
def gvb (r : Fin 16384) : BitVec 1 := vb (ix2 r (gcol gi r))

/-! ## The kernel's program -/

/-- Row `r`'s loss and flag as the kernel's body computes them from what its windows hold. -/
def kLoss (r : Fin 16384) : EReal :=
  bodyLoss (pos s gi r) (wgt w gi r) (b01 (gvb gi vb r)) (b01 (inrw (gi (ix1 r))))
    (fun j => s (ix2 r j)) (fun j => w (ix2 r j)) (fun j => b01 (vb (ix2 r j)))
def kOk (r : Fin 16384) : EReal := bodyOk (b01 (gvb gi vb r)) (b01 (inrw (gi (ix1 r))))

/-- The kernel's ranking loss: the row losses' sum over the row flags' sum when that is positive, else the sum. -/
def kRanking : EReal :=
  if 0 < ∑ r : Fin 16384, kOk gi vb r
  then Ideal.div (∑ r : Fin 16384, kLoss s w gi vb r) (max (∑ r : Fin 16384, kOk gi vb r) one)
  else ∑ r : Fin 16384, kLoss s w gi vb r

/-! ## The reference's program -/

/-- The row counts: its ground truth is in range and valid. -/
def okP (r : Fin 16384) : Prop := inrw (gi (ix1 r)) = 1#1 ∧ gvb gi vb r = 1#1
instance (r : Fin 16384) : Decidable (okP gi vb r) := by unfold okP; infer_instance

/-- Entry (r, j) is a negative: valid, and not the ground-truth column. -/
def negb (r : Fin 16384) (j : Fin 4096) : BitVec 1 :=
  IntOp.andi (vb (ix2 r j)) (IntOp.cmpi .ne (BitVec.ofNat 32 j.val) (clipw (gi (ix1 r))))
def rNum (r : Fin 16384) : EReal :=
  ∑ j : Fin 4096, max (margin - (pos s gi r - s (ix2 r j))) 0 * w (ix2 r j) * b01 (negb gi vb r j)
def rCnt (r : Fin 16384) : ℕ := (Finset.univ.filter fun j : Fin 4096 => negb gi vb r j = 1#1).card
def rLoss (r : Fin 16384) : EReal :=
  if okP gi vb r ∧ 0 < rCnt gi vb r then Ideal.div (rNum s w gi vb r) (((max (rCnt gi vb r) 1 : ℕ) : ℝ) : EReal) else 0
/-- The number of rows that count. -/
def rRows : ℕ := (Finset.univ.filter fun r : Fin 16384 => okP gi vb r).card
def rRanking : EReal :=
  if 0 < rRows gi vb
  then Ideal.div (∑ r : Fin 16384, rLoss s w gi vb r) (((max (rRows gi vb) 1 : ℕ) : ℝ) : EReal)
  else ∑ r : Fin 16384, rLoss s w gi vb r

/-- Every score and every weight is a real number. -/
def Finite : Prop := (∀ i, ∃ x : ℝ, s i = (x : EReal)) ∧ (∀ i, ∃ x : ℝ, w i = (x : EReal))

end

end Cert.Mirl

end
-- ==== Proof.ClipFacts.lean ====
/-
  THE CLIPPED INDEX WORD. `clipw x = min 4095 (max 0 x)` (signed) lies in [0, 4095], so a take along the 4096-wide axis
  at it neither wraps a negative index nor leaves the axis: the take's own normalisation is the identity on it, its bounds
  test passes, and the gather's clamp of it is the word's own value.
-/
import proofs.«429888_j29583734735545_3_alg».proof.Proof.Spec

noncomputable section

namespace Cert.Mirl

open Idealize.ShloMosaic Idealize.ShloMosaic.ValueIdx

/-- A signed 32-bit word's value from its unsigned one. -/
private theorem toInt_cases (y : BitVec 32) :
    (y.toNat < 2147483648 ∧ y.toInt = (y.toNat : Int)) ∨ (2147483648 ≤ y.toNat ∧ y.toInt = (y.toNat : Int) - 4294967296) := by
  have h := BitVec.toInt_eq_toNat_cond y
  have hlt := y.isLt
  by_cases hc : 2 * y.toNat < 2 ^ 32
  · rw [if_pos hc] at h; left; exact ⟨by omega, h⟩
  · rw [if_neg hc] at h; right; refine ⟨by omega, ?_⟩; rw [h]; norm_num

/-- The clipped word, as a signed number, lies in [0, 4095]. -/
theorem clipw_toInt_range (x : BitVec 32) : 0 ≤ (clipw x).toInt ∧ (clipw x).toInt ≤ 4095 := by
  have h0 : (0#32 : BitVec 32).toInt = 0 := by decide
  have h1 : (4095#32 : BitVec 32).toInt = 4095 := by decide
  unfold clipw IntOp.minsi IntOp.maxsi
  simp only [BitVec.slt, decide_eq_true_eq]
  by_cases ha : x.toInt < (0#32 : BitVec 32).toInt
  · rw [if_pos ha]
    by_cases hb : (4095#32 : BitVec 32).toInt < (0#32 : BitVec 32).toInt
    · rw [h0, h1] at hb; omega
    · rw [if_neg hb, h0]; omega
  · rw [if_neg ha]
    by_cases hb : (4095#32 : BitVec 32).toInt < x.toInt
    · rw [if_pos hb, h1]; omega
    · rw [if_neg hb]; rw [h0] at ha; rw [h1] at hb; omega

/-- The clipped word is a small non-negative number. -/
theorem clipw_toNat_lt (x : BitVec 32) : (clipw x).toNat < 4096 := by
  have h := clipw_toInt_range x
  rcases toInt_cases (clipw x) with ⟨_, e⟩ | ⟨hge, e⟩
  · omega
  · have := (clipw x).isLt; omega

theorem clipw_toInt (x : BitVec 32) : (clipw x).toInt = ((clipw x).toNat : Int) := by
  have h := clipw_toInt_range x
  rcases toInt_cases (clipw x) with ⟨_, e⟩ | ⟨hge, e⟩
  · exact e
  · have := (clipw x).isLt; omega

/-- The ground-truth column is the clipped word's value. -/
theorem gcol_val (gi : IVec SB 32) (r : Fin 16384) : (gcol gi r).val = (clipw (gi (ix1 r))).toNat := by
  show min (clipw (gi (ix1 r))).toInt.toNat 4095 = _
  have h1 := clipw_toInt (gi (ix1 r))
  have h2 := clipw_toNat_lt (gi (ix1 r))
  rw [h1]; omega

/-- The take's wrap of a negative index (`x < 0 ? x + 4096 : x`) leaves a clipped word as it is. -/
theorem wrap_clipw (x : BitVec 32) :
    Scalar.select (IntOp.cmpi .slt (clipw x) 0#32) (IntOp.addi (clipw x) 4096#32) (clipw x) = clipw x := by
  have h := clipw_toInt_range x
  have h0 : (0#32 : BitVec 32).toInt = 0 := by decide
  have hc : IntOp.cmpi .slt (clipw x) 0#32 = 0#1 := by
    unfold IntOp.cmpi
    simp only [BitVec.slt]
    rw [h0, decide_eq_false (by omega)]
    rfl
  rw [hc]
  exact select_zero _ _

/-- The take's bounds test (`0 ≤ x ∧ x ≤ 4095`) passes on a clipped word. -/
theorem inb_clipw (x : BitVec 32) :
    IntOp.andi (IntOp.cmpi .sge (clipw x) 0#32) (IntOp.cmpi .sle (clipw x) 4095#32) = 1#1 := by
  have h := clipw_toInt_range x
  have h0 : (0#32 : BitVec 32).toInt = 0 := by decide
  have h1 : (4095#32 : BitVec 32).toInt = 4095 := by decide
  have hc1 : IntOp.cmpi .sge (clipw x) 0#32 = 1#1 := by
    unfold IntOp.cmpi
    simp only [BitVec.sle]
    rw [h0, decide_eq_true (by omega)]
    rfl
  have hc2 : IntOp.cmpi .sle (clipw x) 4095#32 = 1#1 := by
    unfold IntOp.cmpi
    simp only [BitVec.sle]
    rw [h1, decide_eq_true (by omega)]
    rfl
  rw [hc1, hc2]
  rfl

/-- A column number differs from the clipped word exactly when it is not the ground-truth column. -/
theorem ne_clipw_iff (gi : IVec SB 32) (r : Fin 16384) (j : Fin 4096) :
    IntOp.cmpi .ne (BitVec.ofNat 32 j.val) (clipw (gi (ix1 r))) = 1#1 ↔ j ≠ gcol gi r := by
  have hv := gcol_val gi r
  have hj : (BitVec.ofNat 32 j.val).toNat = j.val := by
    rw [BitVec.toNat_ofNat]; exact Nat.mod_eq_of_lt (by have := j.isLt; omega)
  unfold IntOp.cmpi
  constructor
  · intro h e
    have hb : (BitVec.ofNat 32 j.val != clipw (gi (ix1 r))) = true := by
      cases hq : (BitVec.ofNat 32 j.val != clipw (gi (ix1 r))) with
      | true => rfl
      | false => rw [hq] at h; exact absurd h (by decide : ¬ (BitVec.ofBool false = 1#1))
    rw [bne_iff_ne] at hb
    apply hb
    apply BitVec.eq_of_toNat_eq
    rw [hj, e, hv]
  · intro hne
    have hb : (BitVec.ofNat 32 j.val != clipw (gi (ix1 r))) = true := by
      rw [bne_iff_ne]
      intro e
      apply hne
      apply Fin.ext
      rw [hv, ← e, hj]
    rw [hb]
    rfl

/-- A widened validity bit, as a 0 / 1 number, is the bit's. -/
theorem w01_setWidth (b : BitVec 1) : w01 (b.setWidth 32) = b01 b := by
  have hb : b = 0#1 ∨ b = 1#1 := by
    rcases Nat.lt_or_ge b.toNat 1 with h | h
    · left; apply BitVec.eq_of_toNat_eq; simp; omega
    · right; apply BitVec.eq_of_toNat_eq; have := b.isLt; simp; omega
  rcases hb with rfl | rfl
  · unfold w01 b01; rw [if_pos (by decide), if_neg (by decide)]
  · unfold w01 b01; rw [if_neg (by decide), if_pos rfl]

end Cert.Mirl

end
-- ==== Proof.Algebra.lean ====
/-
  THE TWO ROWS AGREE. Over finite scores and weights the kernel's row (the full masked sums minus the ground-truth
  column's own terms) is the reference's row (the sums over the negatives only), and the kernel's sum of row flags is the
  number of rows that count; so the two ranking losses are one number.
-/
import proofs.«429888_j29583734735545_3_alg».proof.Proof.Spec
import proofs.«429888_j29583734735545_3_alg».proof.Proof.ClipFacts

noncomputable section

open scoped BigOperators

namespace Cert.Mirl

open Idealize.ShloMosaic Idealize.ShloMosaic.ValueIdx

/-! ## The literals, as real numbers -/

/-- The margin's binary32 word denotes the positive real 13421773 / 2 ^ 26. -/
private theorem margin_val : margin = ((13421773 / 67108864 : ℝ) : EReal) := by
  unfold margin
  simp [Ideal.ofBits, Ideal.ieee, -EReal.coe_mul]; norm_num

/-- The threshold's word denotes 1 / 2. -/
private theorem half_val : half = ((1 / 2 : ℝ) : EReal) := by
  unfold half
  simp [Ideal.ofBits, Ideal.ieee, -EReal.coe_mul]; norm_num

/-- The floor's word denotes 1. -/
private theorem one_val : one = ((1 : ℝ) : EReal) := by
  unfold one
  simp [Ideal.ofBits, Ideal.ieee, -EReal.coe_mul]; norm_num

/-! ## The coercion ℝ → EReal through a finite sum and through max -/

private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

private theorem coe_max (a b : ℝ) : ((max a b : ℝ) : EReal) = max (a : EReal) (b : EReal) :=
  EReal.coe_strictMono.monotone.map_max

/-! ## Bits as the real numbers 0 and 1 -/

private theorem bit_cases (b : BitVec 1) : b = 0#1 ∨ b = 1#1 := by
  rcases Nat.lt_or_ge b.toNat 1 with h | h
  · left; apply BitVec.eq_of_toNat_eq; simp; omega
  · right; apply BitVec.eq_of_toNat_eq; have := b.isLt; simp; omega

/-- A bit as the real number 0 or 1. -/
private def b01r (b : BitVec 1) : ℝ := if b = 1#1 then 1 else 0

private theorem b01_coe (b : BitVec 1) : b01 b = ((b01r b : ℝ) : EReal) := by
  unfold b01 b01r
  by_cases hb : b = 1#1
  · rw [if_pos hb, if_pos hb, EReal.coe_one]
  · rw [if_neg hb, if_neg hb, EReal.coe_zero]

/-- A 0 / 1 number exceeds one half exactly when its bit is set. -/
private theorem half_lt_b01 (b : BitVec 1) : half < b01 b ↔ b = 1#1 := by
  rw [half_val, b01_coe, EReal.coe_lt_coe_iff]
  unfold b01r
  by_cases hb : b = 1#1
  · rw [if_pos hb]; exact ⟨fun _ => hb, fun _ => by norm_num⟩
  · rw [if_neg hb]; exact ⟨fun h => absurd h (by norm_num), fun h => absurd h hb⟩

section
variable (gi : IVec SB 32) (vb : IVec SBN 1)

/-- The kernel's row test is the reference's: the index in range and the ground truth valid. -/
private theorem bodyOkP_iff (r : Fin 16384) :
    bodyOkP (b01 (gvb gi vb r)) (b01 (inrw (gi (ix1 r)))) ↔ okP gi vb r := by
  unfold bodyOkP okP
  rw [half_lt_b01, half_lt_b01]

/-- An entry is a negative exactly when it is valid and off the ground-truth column. -/
private theorem negb_eq_one_iff (r : Fin 16384) (j : Fin 4096) :
    negb gi vb r j = 1#1 ↔ vb (ix2 r j) = 1#1 ∧ j ≠ gcol gi r := by
  unfold negb
  rw [← ne_clipw_iff]
  generalize vb (ix2 r j) = x
  generalize IntOp.cmpi .ne (BitVec.ofNat 32 j.val) (clipw (gi (ix1 r))) = y
  rcases bit_cases x with rfl | rfl <;> rcases bit_cases y with rfl | rfl <;> decide

/-- The negative mask, as a number, is the validity times the off-column indicator. -/
private theorem b01r_negb (r : Fin 16384) (j : Fin 4096) :
    b01r (negb gi vb r j) = b01r (vb (ix2 r j)) * (if j = gcol gi r then 0 else 1) := by
  unfold b01r
  by_cases hv : vb (ix2 r j) = 1#1
  · by_cases hj : j = gcol gi r
    · rw [if_neg (fun h => ((negb_eq_one_iff gi vb r j).1 h).2 hj), if_pos hj, mul_zero]
    · rw [if_pos ((negb_eq_one_iff gi vb r j).2 ⟨hv, hj⟩), if_pos hv, if_neg hj, mul_one]
  · rw [if_neg (fun h => hv ((negb_eq_one_iff gi vb r j).1 h).1), if_neg hv, zero_mul]

end

/-! ## The algebra of one row, in ℝ -/

/-- Masking one column out of a sum takes that column's term off it. -/
private theorem sum_off (f : Fin 4096 → ℝ) (g : Fin 4096) :
    ∑ j : Fin 4096, f j * (if j = g then 0 else 1) = (∑ j : Fin 4096, f j) - f g := by
  have h : ∀ j : Fin 4096, f j * (if j = g then (0 : ℝ) else 1) = f j - (if j = g then f j else 0) := by
    intro j
    by_cases hj : j = g
    · rw [if_pos hj, if_pos hj, mul_zero, sub_self]
    · rw [if_neg hj, if_neg hj, mul_one, sub_zero]
  rw [Finset.sum_congr rfl (fun j _ => h j), Finset.sum_sub_distrib, Finset.sum_ite_eq' Finset.univ g f,
    if_pos (Finset.mem_univ g)]

/-- The numerators: at the ground-truth column the hinge is max (M − p + p) 0 = M, as M is positive, so the term the
    kernel subtracts is that column's own. -/
private theorem row_real (M : ℝ) (hM : 0 < M) (sr wr vr : Fin 4096 → ℝ) (g : Fin 4096) :
    (∑ j : Fin 4096, max (M - sr g + sr j) 0 * wr j * vr j) - vr g * (M * wr g)
      = ∑ j : Fin 4096, max (M - (sr g - sr j)) 0 * wr j * (vr j * (if j = g then 0 else 1)) := by
  have hterm : ∀ j : Fin 4096, max (M - (sr g - sr j)) 0 * wr j * (vr j * (if j = g then (0 : ℝ) else 1))
      = (max (M - sr g + sr j) 0 * wr j * vr j) * (if j = g then 0 else 1) := by
    intro j
    have e : M - (sr g - sr j) = M - sr g + sr j := by ring
    rw [e]; ring
  rw [Finset.sum_congr rfl (fun j _ => hterm j), sum_off]
  have e : M - sr g + sr g = M := by ring
  rw [e, max_eq_left hM.le]
  ring

variable (s w : FVec Ideal SBN .f32) (gi : IVec SB 32) (vb : IVec SBN 1)

/-- The counts: the valid entries less the ground-truth column's own validity are the negatives. -/
private theorem bodyCnt_eq (r : Fin 16384) :
    bodyCnt (b01 (gvb gi vb r)) (fun j => b01 (vb (ix2 r j))) = (((rCnt gi vb r : ℕ) : ℝ) : EReal) := by
  have hc : ((rCnt gi vb r : ℕ) : ℝ)
      = (∑ j : Fin 4096, b01r (vb (ix2 r j))) - b01r (vb (ix2 r (gcol gi r))) := by
    unfold rCnt
    rw [Finset.card_filter, Nat.cast_sum, ← sum_off]
    refine Finset.sum_congr rfl (fun j _ => ?_)
    rw [← b01r_negb]
    unfold b01r
    by_cases hn : negb gi vb r j = 1#1
    · rw [if_pos hn, if_pos hn, Nat.cast_one]
    · rw [if_neg hn, if_neg hn, Nat.cast_zero]
  unfold bodyCnt gvb
  rw [hc, EReal.coe_sub, coe_sum]
  simp only [b01_coe]

/-- The numerators. -/
private theorem bodyNum_eq (h : Finite s w) (r : Fin 16384) :
    bodyNum (pos s gi r) (wgt w gi r) (b01 (gvb gi vb r))
        (fun j => s (ix2 r j)) (fun j => w (ix2 r j)) (fun j => b01 (vb (ix2 r j)))
      = rNum s w gi vb r := by
  obtain ⟨hs, hw⟩ := h
  choose sr hsr using fun j : Fin 4096 => hs (ix2 r j)
  choose wr hwr using fun j : Fin 4096 => hw (ix2 r j)
  have key := congrArg (fun x : ℝ => (x : EReal))
    (row_real (13421773 / 67108864) (by norm_num) sr wr (fun j => b01r (vb (ix2 r j))) (gcol gi r))
  unfold bodyNum rNum pos wgt gvb
  simp only [hsr, hwr, margin_val, b01_coe, b01r_negb]
  simpa only [EReal.coe_sub, coe_sum, EReal.coe_mul, coe_max, EReal.coe_add, EReal.coe_zero] using key

/-- A row's loss: the kernel's is the reference's. -/
theorem kLoss_eq_rLoss (h : Finite s w) (r : Fin 16384) : kLoss s w gi vb r = rLoss s w gi vb r := by
  unfold kLoss rLoss bodyLoss
  rw [bodyNum_eq s w gi vb h r, bodyCnt_eq gi vb r]
  have hpos : (0 : EReal) < (((rCnt gi vb r : ℕ) : ℝ) : EReal) ↔ 0 < rCnt gi vb r := by
    rw [← EReal.coe_zero, EReal.coe_lt_coe_iff]; exact Nat.cast_pos
  have hden : max ((((rCnt gi vb r : ℕ) : ℝ)) : EReal) one = (((max (rCnt gi vb r) 1 : ℕ) : ℝ) : EReal) := by
    rw [one_val, ← coe_max, Nat.cast_max, Nat.cast_one]
  rw [hden]
  by_cases hc : okP gi vb r ∧ 0 < rCnt gi vb r
  · rw [if_pos hc, if_pos ⟨(bodyOkP_iff gi vb r).2 hc.1, hpos.2 hc.2⟩]
  · rw [if_neg hc, if_neg (fun h' => hc ⟨(bodyOkP_iff gi vb r).1 h'.1, hpos.1 h'.2⟩)]

/-- The kernel's sum of row flags is the number of rows that count. -/
theorem sum_kOk (gi : IVec SB 32) (vb : IVec SBN 1) : ∑ r : Fin 16384, kOk gi vb r = ((rRows gi vb : ℝ) : EReal) := by
  have hk : ∀ r : Fin 16384, kOk gi vb r = (((if okP gi vb r then 1 else 0 : ℕ) : ℝ) : EReal) := by
    intro r
    unfold kOk bodyOk
    by_cases h : okP gi vb r
    · rw [if_pos ((bodyOkP_iff gi vb r).2 h), if_pos h, Nat.cast_one, EReal.coe_one]
    · rw [if_neg (fun h' => h ((bodyOkP_iff gi vb r).1 h')), if_neg h, Nat.cast_zero, EReal.coe_zero]
  rw [Finset.sum_congr rfl (fun r _ => hk r), ← coe_sum, ← Nat.cast_sum]
  unfold rRows
  rw [Finset.card_filter]

/-- The ranking loss: the kernel's is the reference's. -/
theorem kRanking_eq_rRanking (h : Finite s w) : kRanking s w gi vb = rRanking s w gi vb := by
  unfold kRanking rRanking
  rw [sum_kOk, Finset.sum_congr rfl (fun r _ => kLoss_eq_rLoss s w gi vb h r)]
  have hpos : (0 : EReal) < ((rRows gi vb : ℝ) : EReal) ↔ 0 < rRows gi vb := by
    rw [← EReal.coe_zero, EReal.coe_lt_coe_iff]; exact Nat.cast_pos
  have hden : max (((rRows gi vb : ℝ)) : EReal) one = (((max (rRows gi vb) 1 : ℕ) : ℝ) : EReal) := by
    rw [one_val, ← coe_max, Nat.cast_max, Nat.cast_one]
  rw [hden]
  by_cases hp : 0 < rRows gi vb
  · rw [if_pos (hpos.2 hp), if_pos hp]
  · rw [if_neg (fun h' => hp (hpos.1 h')), if_neg hp]

end Cert.Mirl

end
-- ==== Proof.Finite.lean ====
/-
  THE PRECONDITION READ: every score and every negative weight is a real number. `finite_inputs` says that each
  array's entries have absolute value below +∞, all of them at once (an `and` over the whole array); entry by entry that
  is "neither +∞ nor −∞".
-/
import proofs.«429888_j29583734735545_3_alg».proof.Proof.Gen.Pre_finite_inputs
import proofs.«429888_j29583734735545_3_alg».proof.Proof.Spec
import Idealize.ShloMosaic.Lib.ReduceAll

noncomputable section

namespace Cert.MirlFinite

open Idealize.ShloMosaic Idealize.ShloMosaic.ValueIdx Cert.Mirl

/-- The result of a reduction over every axis has one index: a shape of rank 0 has no coordinate to differ in. -/
private instance : Subsingleton Cert.Pre_finite_inputs.S_.Idx := ⟨fun _ _ => funext fun d => d.elim0⟩

/-- The binary32 word `0x7F800000` (sign 0, exponent all ones, fraction 0) denotes +∞. -/
private theorem inf_word : Ideal.ofBits .f32 0x7F800000#32 = (⊤ : EReal) := by
  simp [Ideal.ofBits, Ideal.ieee]

/-- An extended real whose absolute value `max x (−x)` lies below +∞ is a real number: at `⊥` the absolute value is
    `−⊥ = ⊤`, at `⊤` it is `⊤`, and neither is below `⊤`. -/
private theorem real_of_abs_lt_top (x : EReal) (h : max x (-x) < ⊤) : ∃ r : ℝ, x = (r : EReal) := by
  induction x using EReal.rec with
  | bot => simp at h
  | top => simp at h
  | coe r => exact ⟨r, rfl⟩

/-- One entry of the printed comparison: where `|x| < +∞` came out 1, `x` is a real number. -/
private theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  rw [Ideal.ofBits_def, inf_word] at h
  change Ideal.cmp .olt (max x (-x)) ⊤ = 1#1 at h
  by_contra hn
  simp [Ideal.cmp, hn] at h

/-- Arrays on which the printed precondition is all ones are finite. -/
theorem finite_of_pre [Cert.Pre_finite_inputs.Facts] (s w : FVec Ideal SBN .f32) (gi : IVec SB 32) (vb : IVec SBN 1)
    (h : Cert.Pre_finite_inputs.fn (F := Ideal) s w gi vb = (fun _ => 1#1)) : Finite s w := by
  have h0 := congrFun h ValueIdx.ix0
  dsimp only [Cert.Pre_finite_inputs.fn] at h0
  -- the two `and`-reductions, joined by `and`: both are 1
  obtain ⟨hs, hw⟩ := IntOp.andi_eq_one.1 h0
  refine ⟨fun i => ?_, fun i => ?_⟩
  · exact real_of_cmp (s i) (Host.reduce_andi_all _ _ _ _ _ hs i)
  · exact real_of_cmp (w i) (Host.reduce_andi_all _ _ _ _ _ hw i)

end Cert.MirlFinite

end
-- ==== Proof.KernelBody.lean ====
/-
  ONE ROW OF THE KERNEL'S BODY, READ AT AN INDEX. What the body stores into its two output blocks, at row `p` of the
  block, is the row's loss and the row's flag (`Cert.Mirl.bodyLoss`, `bodyOk`) of the numbers its seven input blocks hold
  in that row: the lane sums are sums over the row's 4096 columns, everything else acts entry by entry.
-/
import proofs.«429888_j29583734735545_3_alg».proof.Proof.Gen.KernelIdeal.Frame
import proofs.«429888_j29583734735545_3_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.MirlBody

open Cert.KernelIdeal Cert.KernelIdeal.Gen Idealize.ShloMosaic Idealize.ShloMosaic.ValueIdx Cert.Mirl

/-! ## The layout operations at an index

The body loads and stores whole blocks (rectangles at zero offsets), makes a column [256,1] of a vector [256], spreads
a column along the 4096 lanes, and sums along the lanes. -/

private theorem zero_offsets : (![0, 0] : Fin 2 → Nat) = fun _ => 0 := funext fun a => by fin_cases a <;> rfl

/-- Entry (p, 0) of the column made of a vector is the vector's entry p: both sit at row-major position p. -/
private theorem col_apply {α : Type} (v : S256.Idx → α) (h : S256.ShapeCasts S256x1) (p : Fin 256) :
    shapeCast S256x1 v h (ix2 p 0) = v (ix1 p) := by
  refine shapeCast_apply v h (ix2 p 0) (ix1 p) ?_
  rw [Shape.rowMajor_val_one, Shape.rowMajor_val_two]
  show p.val = p.val * 1 + 0
  omega

/-- Entry (p, j) of a column spread along the lanes is the column's entry (p, 0). -/
private theorem spread_apply {α : Type} (v : S256x1.Idx → α) (h : S256x1.Broadcasts S256x4096) (p : Fin 256)
    (j : Fin 4096) : broadcastTo S256x4096 v h (ix2 p j) = v (ix2 p 0) := by
  refine broadcastTo_apply v h (ix2 p j) (ix2 p 0) ?_
  intro a
  match a with
  | ⟨0, _⟩ => rfl
  | ⟨1, _⟩ => rfl

/-- Row p's lane sum is the sum over the row's 4096 columns (the accumulator is the sum's neutral element). -/
private theorem lane_sum_apply (v : FVec Ideal S256x4096 .f32) (h : S256x4096.Reduces [1] S256) (p : Fin 256) :
    multiReduction (F := Ideal) .add [1] S256 v 0x00000000#32 h (.inl rfl) rfl (ix1 p)
      = ∑ j : Fin 4096, v (ix2 p j) := by
  refine (Ideal.multiReduction_add_single v _ h (.inl rfl) rfl (ix1 p)).trans ?_
  refine Finset.sum_congr rfl fun j _ => congrArg v ?_
  funext c
  apply Fin.ext
  match c with
  | ⟨0, _⟩ => rfl
  | ⟨1, _⟩ => rfl

/-! ## Bits as numbers -/

/-- `v ≠ 0` as a bit, widened and read as a number: 0 for the zero word, 1 for every other word. -/
private theorem widen_ne_zero (v : BitVec 32) :
    (FloatOps.sitofp (F := Ideal) .f32 ((IntOp.cmpi .ne v 0#32).setWidth 32) : EReal) = w01 v := by
  unfold w01
  by_cases hv : v = 0#32
  · subst hv
    rw [if_pos rfl]
    show (((((IntOp.cmpi .ne (0#32) 0#32).setWidth 32).toInt : ℤ) : ℝ) : EReal) = 0
    have e : ((IntOp.cmpi .ne (0#32) 0#32).setWidth 32).toInt = 0 := by decide
    rw [e]; simp
  · rw [if_neg hv]
    have hb : (v != 0#32) = true := by simpa [bne_iff_ne] using hv
    show (((((BitVec.ofBool (v != 0#32)).setWidth 32).toInt : ℤ) : ℝ) : EReal) = 1
    rw [hb]
    have e : ((BitVec.ofBool true).setWidth 32).toInt = 1 := by decide
    rw [e]; simp

/-- The conjunction of two decided bits is the decided conjunction. -/
private theorem andi_ofBool (a b : Bool) :
    IntOp.andi (BitVec.ofBool a) (BitVec.ofBool b) = BitVec.ofBool (a && b) := by
  cases a <;> cases b <;> rfl

/-- A choice on a decided bit. -/
private theorem select_ofBool {α : Type} (c : Bool) (a b : α) :
    Scalar.select (BitVec.ofBool c) a b = if c = true then a else b := by
  cases c
  · exact if_neg (by decide)
  · exact if_pos rfl

/-- A decided bit widened and read as a number. -/
private theorem widen_ofBool (c : Bool) :
    (FloatOps.sitofp (F := Ideal) .f32 ((BitVec.ofBool c).setWidth 32) : EReal) = if c = true then 1 else 0 := by
  cases c
  · show (((((BitVec.ofBool false).setWidth 32).toInt : ℤ) : ℝ) : EReal) = _
    have e : ((BitVec.ofBool false).setWidth 32).toInt = 0 := by decide
    rw [e]; simp
  · show (((((BitVec.ofBool true).setWidth 32).toInt : ℤ) : ℝ) : EReal) = _
    have e : ((BitVec.ofBool true).setWidth 32).toInt = 1 := by decide
    rw [e]; simp

/-- The row counts, and its count is positive: the three comparisons' bits, chosen on. -/
private theorem loss_select (GV IR cnt q : EReal) :
    Scalar.select
        (IntOp.andi (IntOp.andi (BitVec.ofBool (decide (half < IR))) (BitVec.ofBool (decide (half < GV))))
          (BitVec.ofBool (decide (0 < cnt)))) q 0
      = if bodyOkP GV IR ∧ 0 < cnt then q else 0 := by
  rw [andi_ofBool, andi_ofBool, select_ofBool]
  by_cases h1 : half < IR <;> by_cases h2 : half < GV <;> by_cases h3 : 0 < cnt <;> simp [bodyOkP, h1, h2, h3]

/-- The row counts: the two comparisons' bits, widened. -/
private theorem ok_widen (GV IR : EReal) :
    (FloatOps.sitofp (F := Ideal) .f32
        ((IntOp.andi (BitVec.ofBool (decide (half < IR))) (BitVec.ofBool (decide (half < GV)))).setWidth 32) : EReal)
      = bodyOk GV IR := by
  rw [andi_ofBool, widen_ofBool]
  unfold bodyOk
  by_cases h1 : half < IR <;> by_cases h2 : half < GV <;> simp [bodyOkP, h1, h2]

/-! ## The body's named values at an index -/

/-- The validity column as loaded: a cast to its own shape. -/
private theorem pay4_eq (v4 : Vec Ideal S256x1 .f32) : k0_pay4 (F := Ideal) v4 = v4 :=
  shapeCast_self v4 shapeCasts_S256x1_S256x1

/-- The range bit: the range column's entry exceeds one half. -/
private theorem pay8_apply (v6 : Vec Ideal S256x1 .f32) (i : S256x1.Idx) :
    k0_pay8 (F := Ideal) v6 i = BitVec.ofBool (decide (half < v6 i)) := by
  unfold k0_pay8
  simp only [shapeCast_self]
  rfl

/-- The row's bit: the range bit and "the validity entry exceeds the threshold". -/
private theorem pay1_apply (v5 : FVec Ideal S256x1 .f32) (v35 : IVec S256x1 1) (c : Ideal .f32) (i : S256x1.Idx) :
    k0_pay1 (F := Ideal) v5 v35 c i = IntOp.andi (v35 i) (BitVec.ofBool (decide (c < v5 i))) := rfl

/-- An entry's validity as a number. -/
private theorem pay5_apply (v10 : Vec Ideal S256x4096 .i32) (i : S256x4096.Idx) :
    k0_pay5 (F := Ideal) v10 i = w01 (v10 i) := widen_ne_zero (v10 i)

/-- The row's count: the valid entries of the row, less the ground-truth column's own validity. -/
private theorem pay6_apply (v4 : Vec Ideal S256x1 .f32) (v10 : Vec Ideal S256x4096 .i32) (p : Fin 256) :
    k0_pay6 (F := Ideal) v4 v10 (ix2 p 0) = bodyCnt (v4 (ix2 p 0)) (fun j => w01 (v10 (ix2 p j))) := by
  unfold k0_pay6
  simp only [subf_apply, col_apply, pay4_eq]
  rw [lane_sum_apply]
  simp only [pay5_apply]
  rfl

/-- The row's quotient: its numerator over its count floored at one. -/
private theorem pay7_apply (v0 v2 v4 : Vec Ideal S256x1 .f32) (v8 v9 : Vec Ideal S256x4096 .f32)
    (v10 : Vec Ideal S256x4096 .i32) (p : Fin 256) :
    k0_pay7 (F := Ideal) v0 v2 v4 v8 v9 v10 (ix2 p 0)
      = Ideal.div
          (bodyNum (v0 (ix2 p 0)) (v2 (ix2 p 0)) (v4 (ix2 p 0)) (fun j => v8 (ix2 p j)) (fun j => v9 (ix2 p j))
            (fun j => w01 (v10 (ix2 p j))))
          (max (bodyCnt (v4 (ix2 p 0)) (fun j => w01 (v10 (ix2 p j)))) one) := by
  have hs : ∀ b : BitVec 32, Scalar.ofBits (F := Ideal) .f32 b = Ideal.ofBits .f32 b := fun _ => rfl
  unfold k0_pay7
  simp only [divf_apply, subf_apply, mulf_apply, maximumf_apply, broadcast_apply, col_apply, shapeCast_self, pay4_eq,
    pay6_apply, hs]
  rw [lane_sum_apply]
  simp only [mulf_apply, addf_apply, subf_apply, maximumf_apply, broadcast_apply, spread_apply, pay5_apply,
    Ideal.ofBits_zero_f32]
  rfl

/-- The stored loss: the quotient where the row counts and its count is positive, else zero. -/
private theorem pay2_apply (v5 v30 v33 : FVec Ideal S256x1 .f32) (v35 : IVec S256x1 1) (c : Ideal .f32)
    (i : S256x1.Idx) :
    k0_pay2 (F := Ideal) v5 v30 v33 v35 c i
      = Scalar.select
          (IntOp.andi (k0_pay1 (F := Ideal) v5 v35 c i)
            (BitVec.ofBool (decide (Ideal.ofBits .f32 0x00000000#32 < v30 i))))
          (v33 i) (Ideal.ofBits .f32 0x00000000#32) := rfl

/-- The stored flag: the row's bit, widened. -/
private theorem pay3_apply (v5 : FVec Ideal S256x1 .f32) (v35 : IVec S256x1 1) (c : Ideal .f32) (i : S256x1.Idx) :
    k0_pay3 (F := Ideal) v5 v35 c i
      = FloatOps.sitofp (F := Ideal) .f32 ((k0_pay1 (F := Ideal) v5 v35 c i).setWidth 32) := rfl

/-- Row `p` of the loss block the body leaves. -/
theorem out_loss_apply (x0 x1 : Vec Ideal S256x4096 .f32) (x2 : Vec Ideal S256x4096 .i32)
    (x3 x4 x5 x6 : Vec Ideal S256x1 .f32) (p : Fin 256) :
    out0_7 (F := Ideal) x0 x1 x2 x3 x4 x5 x6 (ix2 p 0)
      = bodyLoss (x3 (ix2 p 0)) (x4 (ix2 p 0)) (x5 (ix2 p 0)) (x6 (ix2 p 0))
          (fun j => x0 (ix2 p j)) (fun j => x1 (ix2 p j)) (fun j => w01 (x2 (ix2 p j))) := by
  unfold out0_7
  rw [View.canon_unit_zero zero_offsets]
  simp only [View.ld_unit_zero (S := S256x1) zero_offsets, View.ld_unit_zero (S := S256x4096) zero_offsets]
  rw [pay2_apply, pay1_apply, pay8_apply, pay4_eq, pay6_apply, pay7_apply, Ideal.ofBits_zero_f32]
  unfold bodyLoss
  exact loss_select _ _ _ _

/-- Row `p` of the flag block the body leaves. -/
theorem out_ok_apply (x0 x1 : Vec Ideal S256x4096 .f32) (x2 : Vec Ideal S256x4096 .i32)
    (x3 x4 x5 x6 : Vec Ideal S256x1 .f32) (p : Fin 256) :
    out0_8 (F := Ideal) x0 x1 x2 x3 x4 x5 x6 (ix2 p 0) = bodyOk (x5 (ix2 p 0)) (x6 (ix2 p 0)) := by
  unfold out0_8
  rw [View.canon_unit_zero zero_offsets]
  simp only [View.ld_unit_zero (S := S256x1) zero_offsets]
  rw [pay3_apply, pay1_apply, pay8_apply, pay4_eq]
  exact ok_widen _ _

end Cert.KernelIdeal.MirlBody

end
-- ==== Proof.LibTakeAlongAxis.lean ====
/-
  READING A TAKE ALONG THE LAST AXIS AT AN INDEX, at any extents.

  `jnp.take_along_axis (x, idx, axis = 1)` of a table `x : [B, N]` at a column of positions `idx : [B, 1]` prints as a
  `stablehlo.gather` whose operand's axis 0 is a batching axis paired with the start indices' axis 0, whose operand's
  axis 1 is collapsed and is the one the start index names, with no offset axes, the start indices `[B, 1, 1]` carrying
  their index vector on axis 2. Result element `(b, 0)` is the table's row `b` at the column `idx[b, 0, 0]`, read as a
  signed integer and clamped into `[0, N − 1]`.
-/
import Idealize.ShloMosaic.Lib.ValueIdx
import Idealize.ShloMosaic.Lib.ValueIdxRank1

noncomputable section

namespace Cert.LibTakeAlongAxis

open Idealize.ShloMosaic Idealize.ShloMosaic.ValueIdx

variable {α : Type}

/-- The dimension numbers of a take along axis 1: operand `[B, N]`, start indices `[B, 1, 1]`, result `[B, 1]`; no
    offset axis, the operand's axis 1 collapsed and named by the start index, its axis 0 batching with the start
    indices' axis 0, single elements `[1, 1]` sliced. -/
abbrev takeAxis1Dims (B N : Nat)
    (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- THE TAKE ALONG AXIS 1 READ AT `(b, 0)`: row `b` of the table at the column `idx[b, 0, 0]` (signed, clamped into
    `[0, N − 1]`). -/
theorem gather_take_along_axis1 {B N w : Nat} (hN : 0 < N)
    (wf : GatherDims.WF ⟨2, ![B, N]⟩ ⟨3, ![B, 1, 1]⟩ ⟨2, ![B, 1]⟩ [] [1] [0] [1] [0] 2 ![1, 1])
    (x : (⟨2, ![B, N]⟩ : Shape).Idx → α) (idx : IVec ⟨3, ![B, 1, 1]⟩ w) (b : Fin B) :
    Host.gather (takeAxis1Dims B N wf) x idx (ix2 b 0)
      = x (ix2 b ⟨min (idx (ix3 b 0 0)).toInt.toNat (N - 1), by omega⟩) := by
  unfold Host.gather
  congr 1
  funext a
  refine Fin.ext ?_
  match a with
  | ⟨0, _⟩ =>
    show (takeAxis1Dims B N wf).start (ix2 b 0) idx 0 + (takeAxis1Dims B N wf).batchCoord (ix2 b 0) 0
        + (takeAxis1Dims B N wf).offCoord (ix2 b 0) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (takeAxis1Dims B N wf).operandBatchingDims from List.mem_singleton.mpr rfl)]
    rfl
  | ⟨1, _⟩ =>
    show (takeAxis1Dims B N wf).start (ix2 b 0) idx 1 + (takeAxis1Dims B N wf).batchCoord (ix2 b 0) 1
        + (takeAxis1Dims B N wf).offCoord (ix2 b 0) 1 = _
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeAxis1Dims B N wf).startIndexMap from List.mem_singleton.mpr rfl)]
    have hsi : (takeAxis1Dims B N wf).siIdx (ix2 b 0) ⟨List.idxOf (1 : Fin 2) (takeAxis1Dims B N wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl

end Cert.LibTakeAlongAxis

end
-- ==== Proof.KernelHost.lean ====
/-
  WHAT THE REGION FINDS IN ITS HOST-COMPUTED WINDOWS. Before the region the program clips the index words, takes the
  score, the weight and the validity bit at each row's ground-truth column, turns the bit and the in-range test into
  0 / 1 numbers and widens the validity mask to words. Read at an index, those arrays are the specification's
  `pos`, `wgt`, `b01 gvb`, `b01 inrw` and the widened bit.
-/
import proofs.«429888_j29583734735545_3_alg».proof.Proof.Gen.KernelIdeal.Frame
import proofs.«429888_j29583734735545_3_alg».proof.Proof.Spec
import proofs.«429888_j29583734735545_3_alg».proof.Proof.ClipFacts
import proofs.«429888_j29583734735545_3_alg».proof.Proof.LibTakeAlongAxis
import Idealize.ShloMosaic.Lib.Pipeline.Value
import Idealize.ShloMosaic.Lib.ValueLayout
import Idealize.ShloMosaic.Lib.StableHlo.Run
import Idealize.ShloMosaic.PureOps.Reduce

noncomputable section

namespace Cert.KernelIdeal.MirlHost

open Cert.KernelIdeal Cert.KernelIdeal.Gen Idealize.ShloMosaic Idealize.ShloMosaic.TcCoe Idealize.ShloMosaic.ValueIdx Idealize.SL.Sem Cert.Mirl
open Idealize.ShloMosaic.StableHlo

variable (m : (ℓ : Loc nD τ sig) → Buf (Elt Ideal) ℓ)

/-- The four argument arrays as launched. -/
abbrev argS (c : Dev nD) : FVec Ideal SBN .f32 := m ((c.tc : Thread nD τ).loc main_arg0)
abbrev argW (c : Dev nD) : FVec Ideal SBN .f32 := m ((c.tc : Thread nD τ).loc main_arg1)
abbrev argG (c : Dev nD) : IVec SB 32 := m ((c.tc : Thread nD τ).loc main_arg2)
abbrev argV (c : Dev nD) : IVec SBN 1 := m ((c.tc : Thread nD τ).loc main_arg3)

/-! ## The host operations' terms, generic in the table taken from -/

section Terms
variable {α : Type}

/-- The program's clip of the index words: `min 4095 (max 0 g)`, both bounds broadcast constants. -/
private def hClip (g : IVec S16384 32) : IVec S16384 32 :=
  minsi (broadcastInDim S16384 ![] bcast_S_S16384 (id (constantI S_ 32 4095#32)))
    (maxsi (broadcastInDim S16384 ![] bcast_S_S16384 (id (constantI S_ 32 0#32))) g)

/-- The clipped words as a column. -/
private def hCol (g : IVec S16384 32) : IVec S16384x1 32 :=
  fun i => shapeCast S16384x1 (hClip g) shapeCasts_S16384_S16384x1 i

/-- A take's start indices: the column with its negative entries moved up by the axis length, as [16384, 1, 1]. -/
private def hIdx (col : IVec S16384x1 32) : IVec S16384x1x1 32 :=
  fun i => shapeCast S16384x1x1
    (select (cmpi .slt col (broadcastInDim S16384x1 ![] bcast_S_S16384x1 (constantI S_ 32 0#32)))
      (addi col (broadcastInDim S16384x1 ![] bcast_S_S16384x1 (constantI S_ 32 4096#32))) col)
    shapeCasts_S16384x1_S16384x1x1 i

/-- A take's bounds test `0 ≤ idx ≤ 4095`, reduced by `and` over the index-vector axis (of length one). -/
private def hInb (idx : IVec S16384x1x1 32) : IVec S16384x1 1 :=
  Host.reduce IntOp.andi
    (andi (cmpi .sge idx (broadcastInDim S16384x1x1 ![] bcast_S_S16384x1x1 (constantI S_ 32 0#32)))
      (cmpi .sle idx (broadcastInDim S16384x1x1 ![0, 1, 2] bcast_S1x1x1_S16384x1x1_0_1_2
        (broadcastInDim S1x1x1 ![2] bcast_S1_S1x1x1_2 (constantI S1 32 4095#32)))))
    (constantI S_ 1 1#1) reducesTo_S16384x1x1_S16384x1_d2 h_S_

/-- A take along axis 1 of the table `x` at the column `col`: the gather where the bounds test passes, `fill` elsewhere. -/
private def hTake (x : S16384x4096.Idx → α) (col : IVec S16384x1 32) (fill : S16384x1.Idx → α) : S16384x1.Idx → α :=
  select (hInb (hIdx col)) (Host.gather gather_S16384x4096_S16384x1x1_S16384x1_n_1_0_0_1_2_11 x (hIdx col)) fill

/-! ## The terms read at a row -/

/-- The clip, entry by entry, is the specification's clipped word. -/
private theorem hClip_apply (g : IVec S16384 32) (i : S16384.Idx) : hClip g i = clipw (g i) := rfl

/-- Row `r` of the column is row `r`'s clipped word: the reshape keeps the row-major position. -/
private theorem hCol_apply (g : IVec S16384 32) (r : Fin 16384) : hCol g (ix2 r 0) = clipw (g (ix1 r)) := by
  show shapeCast S16384x1 (hClip g) shapeCasts_S16384_S16384x1 (ix2 r 0) = _
  rw [shapeCast_apply (hClip g) shapeCasts_S16384_S16384x1 (ix2 r 0) (ix1 r) (by
    rw [Shape.rowMajor_val_one, Shape.rowMajor_val_two]
    show r.val = r.val * 1 + 0
    omega)]
  rfl

/-- A clipped word is not negative, so the take's wrap leaves it: start index `(r, 0, 0)` is row `r`'s clipped word. -/
private theorem hIdx_apply (g : IVec S16384 32) (r : Fin 16384) : hIdx (hCol g) (ix3 r 0 0) = clipw (g (ix1 r)) := by
  show shapeCast S16384x1x1 _ shapeCasts_S16384x1_S16384x1x1 (ix3 r 0 0) = _
  rw [shapeCast_apply _ shapeCasts_S16384x1_S16384x1x1 (ix3 r 0 0) (ix2 r 0) (by
    rw [Shape.rowMajor_val_two, Shape.rowMajor_val_three]
    show r.val * 1 + 0 = (r.val * 1 + 0) * 1 + 0
    omega)]
  show Scalar.select (IntOp.cmpi .slt (hCol g (ix2 r 0)) 0#32) (IntOp.addi (hCol g (ix2 r 0)) 4096#32) (hCol g (ix2 r 0)) = _
  rw [hCol_apply, wrap_clipw]

/-- A fold over an index type of one element is the operation applied once. -/
private theorem fold_fin_one {β : Type} (op : β → β → β) [Std.Commutative op] [Std.Associative op] (b : β) {n : Nat} (hn : n = 1)
    (f : Fin n → β) : (Finset.univ : Finset (Fin n)).fold op b f = op (f ⟨0, by omega⟩) b := by
  subst hn
  rw [Finset.univ_unique, Finset.fold_singleton]
  rfl

/-- `and` with the one-bit word 1 changes nothing. -/
private theorem andi_one (a : BitVec 1) : IntOp.andi a 1#1 = a := by
  show a &&& 1#1 = a
  have h : (1#1 : BitVec 1) = BitVec.allOnes 1 := by decide
  rw [h, BitVec.and_allOnes]

/-- An `and`-reduction from 1 over the last axis, of length one, of a [16384, 1, 1] array of bits: entry `(r, 0)` is the
    array's entry `(r, 0, 0)`. -/
private theorem reduce_last (p : IVec S16384x1x1 1) (r : Fin 16384) :
    Host.reduce IntOp.andi p (constantI S_ 1 1#1) reducesTo_S16384x1x1_S16384x1_d2 h_S_ (ix2 r 0) = p (ix3 r 0 0) := by
  have hR : S16384x1x1.Reduces [2] S16384x1 := by decide
  rw [Host.reduce_eq_fold_single IntOp.andi p (constantI S_ 1 1#1) reducesTo_S16384x1x1_S16384x1_d2 hR h_S_ (ix2 r 0),
    fold_fin_one IntOp.andi _ (rfl : S16384x1x1.size 2 = 1)]
  have hl : hR.lift (ix2 r 0) ⟨0, Nat.one_pos⟩ = ix3 r 0 0 := by
    funext c
    refine Fin.ext ?_
    match c with
    | ⟨0, _⟩ => rfl
    | ⟨1, _⟩ => rfl
    | ⟨2, _⟩ => rfl
  show IntOp.andi (p (hR.lift (ix2 r 0) ⟨0, Nat.one_pos⟩)) 1#1 = _
  rw [hl]
  exact andi_one _

/-- The bounds test passes at every row: the start index is a clipped word. -/
private theorem hInb_apply (g : IVec S16384 32) (r : Fin 16384) : hInb (hIdx (hCol g)) (ix2 r 0) = 1#1 := by
  unfold hInb
  rw [reduce_last]
  show IntOp.andi (IntOp.cmpi .sge (hIdx (hCol g) (ix3 r 0 0)) 0#32) (IntOp.cmpi .sle (hIdx (hCol g) (ix3 r 0 0)) 4095#32) = 1#1
  rw [hIdx_apply, inb_clipw]

/-- THE TAKE AT ROW `r`: the table's row `r` at the row's ground-truth column. -/
private theorem hTake_apply (x : S16384x4096.Idx → α) (g : IVec S16384 32) (fill : S16384x1.Idx → α) (r : Fin 16384) :
    hTake x (hCol g) fill (ix2 r 0) = x (ix2 r (gcol g r)) := by
  show Scalar.select (hInb (hIdx (hCol g)) (ix2 r 0))
      (Host.gather gather_S16384x4096_S16384x1x1_S16384x1_n_1_0_0_1_2_11 x (hIdx (hCol g)) (ix2 r 0)) (fill (ix2 r 0)) = _
  rw [hInb_apply, select_one]
  refine (Cert.LibTakeAlongAxis.gather_take_along_axis1 (B := 16384) (N := 4096) (by decide)
    gather_S16384x4096_S16384x1x1_S16384x1_n_1_0_0_1_2_11_wf x (hIdx (hCol g)) r).trans ?_
  refine congrArg x (congrArg (ix2 r) (Fin.ext ?_))
  show min (hIdx (hCol g) (ix3 r 0 0)).toInt.toNat (4096 - 1) = min (clipw (g (ix1 r))).toInt.toNat 4095
  rw [hIdx_apply]

end Terms

/-- The in-range test `0 ≤ g < 4096` of the index words. -/
private def hInr (g : IVec S16384 32) : IVec S16384 1 :=
  andi (cmpi .sge g (broadcastInDim S16384 ![] bcast_S_S16384 (constantI S_ 32 0#32)))
    (cmpi .slt g (broadcastInDim S16384 ![] bcast_S_S16384 (constantI S_ 32 4096#32)))

/-- Entry by entry it is the specification's in-range bit. -/
private theorem hInr_apply (g : IVec S16384 32) (i : S16384.Idx) : hInr g i = inrw (g i) := rfl

/-- A bit turned into a number, exactly: 0 or 1. -/
private theorem uitofp_bit (b : BitVec 1) : FloatOps.uitofp (F := Ideal) .f32 b = b01 b := by
  show ((b.toNat : ℝ) : EReal) = b01 b
  have hlt : b.toNat < 2 := b.isLt
  have hb : b = 0#1 ∨ b = 1#1 := by
    rcases Nat.lt_or_ge b.toNat 1 with h | h
    · exact Or.inl (BitVec.eq_of_toNat_eq (by show b.toNat = 0; omega))
    · exact Or.inr (BitVec.eq_of_toNat_eq (by show b.toNat = 1; omega))
  rcases hb with rfl | rfl
  · unfold b01
    rw [if_neg (by decide)]
    show (((0 : ℕ) : ℝ) : EReal) = 0
    rw [Nat.cast_zero, EReal.coe_zero]
  · unfold b01
    rw [if_pos rfl]
    show (((1 : ℕ) : ℝ) : EReal) = 1
    rw [Nat.cast_one, EReal.coe_one]

/-! ## The five arrays as the host operations' terms -/

set_option maxHeartbeats 1000000 in
/-- Window 3's array is the take of the scores at the clipped column (out-of-bounds rows a NaN that no row meets). -/
private theorem e_v7 (c : Dev nD) :
    (V m c main_v7 : FVec Ideal S16384x1 .f32)
      = hTake (argS m c) (hCol (argG m c))
          (broadcastInDim S16384x1 ![] bcast_S_S16384x1 (constant (F := Ideal) S_ .f32 0x7FC00000#32)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [TRef.ofBuf, TRef.toBuf, cast_eq]
  rfl

set_option maxHeartbeats 1000000 in
/-- Window 4's array is the take of the weights at the clipped column. -/
private theorem e_v8 (c : Dev nD) :
    (V m c main_v8 : FVec Ideal S16384x1 .f32)
      = hTake (argW m c) (hCol (argG m c))
          (broadcastInDim S16384x1 ![] bcast_S_S16384x1 (constant (F := Ideal) S_ .f32 0x7FC00000#32)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [TRef.ofBuf, TRef.toBuf, cast_eq]
  rfl

set_option maxHeartbeats 1000000 in
/-- Window 5's array is the take of the validity bits at the clipped column, each bit turned into a number. -/
private theorem e_v10 (c : Dev nD) :
    (V m c main_v10 : FVec Ideal S16384x1 .f32)
      = uitofp (F := Ideal) .f32 (hTake (argV m c) (hCol (argG m c))
          (broadcastInDim S16384x1 ![] bcast_S_S16384x1 (constantI S_ 1 1#1))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [TRef.ofBuf, TRef.toBuf, cast_eq]
  rfl

set_option maxHeartbeats 1000000 in
/-- Window 6's array is the in-range bits turned into numbers, as a column. -/
private theorem e_v12 (c : Dev nD) :
    (V m c main_v12 : FVec Ideal S16384x1 .f32)
      = fun i => shapeCast S16384x1 (uitofp (F := Ideal) .f32 (hInr (argG m c))) shapeCasts_S16384_S16384x1 i := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 1000000 in
/-- Window 2's array is the validity mask, each bit widened to a word. -/
private theorem e_v13 (c : Dev nD) :
    (V m c main_v13 : IVec S16384x4096 32) = extui 32 (argV m c) natLt_1_32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

/-! ## The five arrays at an index -/

/-- Window 3's array: each row's score at its ground-truth column. -/
theorem V_pos (c : Dev nD) (r : Fin 16384) :
    (V m c main_v7 : FVec Ideal S16384x1 .f32) (ix2 r 0) = pos (argS m c) (argG m c) r := by
  rw [e_v7 m c, hTake_apply, pos]

/-- Window 4's array: each row's weight at its ground-truth column. -/
theorem V_wgt (c : Dev nD) (r : Fin 16384) :
    (V m c main_v8 : FVec Ideal S16384x1 .f32) (ix2 r 0) = wgt (argW m c) (argG m c) r := by
  rw [e_v8 m c, hTake_apply, wgt]

/-- Window 5's array: each row's validity at its ground-truth column, as 0 or 1. -/
theorem V_gv (c : Dev nD) (r : Fin 16384) :
    (V m c main_v10 : FVec Ideal S16384x1 .f32) (ix2 r 0) = b01 (gvb (argG m c) (argV m c) r) := by
  rw [e_v10 m c]
  show FloatOps.uitofp (F := Ideal) .f32 (hTake (argV m c) (hCol (argG m c)) _ (ix2 r 0)) = _
  rw [hTake_apply, uitofp_bit, gvb]

/-- Window 6's array: whether each row's index word was in range, as 0 or 1. -/
theorem V_ir (c : Dev nD) (r : Fin 16384) :
    (V m c main_v12 : FVec Ideal S16384x1 .f32) (ix2 r 0) = b01 (inrw (argG m c (ix1 r))) := by
  rw [e_v12 m c]
  show shapeCast S16384x1 (uitofp (F := Ideal) .f32 (hInr (argG m c))) shapeCasts_S16384_S16384x1 (ix2 r 0) = _
  rw [shapeCast_apply _ shapeCasts_S16384_S16384x1 (ix2 r 0) (ix1 r) (by
    rw [Shape.rowMajor_val_one, Shape.rowMajor_val_two]
    show r.val = r.val * 1 + 0
    omega)]
  show FloatOps.uitofp (F := Ideal) .f32 (hInr (argG m c) (ix1 r)) = _
  rw [hInr_apply, uitofp_bit]

/-- Window 2's array: the validity mask widened to words; as a 0 / 1 number it is the bit's. -/
theorem V_valid (c : Dev nD) (r : Fin 16384) (j : Fin 4096) :
    w01 ((V m c main_v13 : IVec S16384x4096 32) (ix2 r j)) = b01 (argV m c (ix2 r j)) := by
  rw [e_v13 m c]
  show w01 ((argV m c (ix2 r j)).setWidth 32) = _
  exact w01_setWidth _

end Cert.KernelIdeal.MirlHost

end
-- ==== Proof.KernelValue.lean ====
/-
  THE KERNEL'S PROGRAM, END TO END. Block `t` of each output array is what the body left at point `t`: rows
  256·t … 256·t + 255; the 64 blocks tile the 16384 rows, so the loss array holds `kLoss r` and the flag array `kOk r` at
  row `r`. The lines after the region sum both arrays and divide: the program's three results are the ranking loss plus
  the rejection weight times zero, the ranking loss, and zero.
-/
import proofs.«429888_j29583734735545_3_alg».proof.Proof.Gen.KernelIdeal.Frame
import proofs.«429888_j29583734735545_3_alg».proof.Proof.Spec
import proofs.«429888_j29583734735545_3_alg».proof.Proof.ClipFacts
import proofs.«429888_j29583734735545_3_alg».proof.Proof.KernelBody
import proofs.«429888_j29583734735545_3_alg».proof.Proof.KernelHost
import Idealize.ShloMosaic.PureOps.Ideal.Laws
import Idealize.ShloMosaic.Lib.Pipeline.Value
import Idealize.ShloMosaic.Lib.StableHlo.Run

noncomputable section

open scoped BigOperators

namespace Cert.KernelIdeal.MirlValue

open Cert.KernelIdeal Cert.KernelIdeal.Gen Idealize.ShloMosaic Idealize.ShloMosaic.TcCoe Idealize.ShloMosaic.ValueIdx Idealize.SL.Sem Cert.Mirl
open Cert.KernelIdeal.MirlHost

variable (m : (ℓ : Loc nD τ sig) → Buf (Elt Ideal) ℓ) (ρ : Dev nD → PrngReg)

/-! ## Where each window's block sits -/

/-- The printed index maps, decided over the grid: at point `t` every window's block is row block `t`, column block 0. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of block `t` is row `256 t + p` of the array: the 64 blocks of 256 rows tile the 16384 rows. -/
private def row (t : Fin cfg0.N) (p : Fin 256) : Fin 16384 :=
  ⟨256 * t.val + p.val, by have := t.isLt; have h : cfg0.N = 64 := N_0; have := p.isLt; omega⟩

/-- The scores' block at point `t`, row `p`, column `j`, is the array's entry at row `256 t + p`, column `j`. -/
private theorem blk0 (c : Dev nD) (t : Fin cfg0.N) (p : Fin 256) (j : Fin 4096) :
    (iblk m c 0 t : Vec Ideal S256x4096 .f32) (ix2 p j)
      = (V m c main_arg0 : FVec Ideal S16384x4096 .f32) (ix2 (row t p) j) := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 256 + 1 * p.val = 256 * t.val + p.val; omega
  | ⟨1, _⟩ => show win0_0.index t (1 : Fin 2) * 4096 + 1 * j.val = j.val; omega

/-- The weights' block likewise. -/
private theorem blk1 (c : Dev nD) (t : Fin cfg0.N) (p : Fin 256) (j : Fin 4096) :
    (iblk m c 1 t : Vec Ideal S256x4096 .f32) (ix2 p j)
      = (V m c main_arg1 : FVec Ideal S16384x4096 .f32) (ix2 (row t p) j) := by
  obtain ⟨-, -, e0, e1, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 256 + 1 * p.val = 256 * t.val + p.val; omega
  | ⟨1, _⟩ => show win0_1.index t (1 : Fin 2) * 4096 + 1 * j.val = j.val; omega

/-- The widened validity words' block likewise. -/
private theorem blk2 (c : Dev nD) (t : Fin cfg0.N) (p : Fin 256) (j : Fin 4096) :
    (iblk m c 2 t : Vec Ideal S256x4096 .i32) (ix2 p j)
      = (V m c main_v13 : IVec S16384x4096 32) (ix2 (row t p) j) := by
  obtain ⟨-, -, -, -, e0, e1, -⟩ := idx_facts t
  unfold iblk
  rw [View.read_apply]
  show V m c main_v13 _ = V m c main_v13 _
  refine congrArg (V m c main_v13) ?_
  funext a
  apply Fin.ext
  match a with
  | ⟨0, _⟩ => show win0_2.index t (0 : Fin 2) * 256 + 1 * p.val = 256 * t.val + p.val; omega
  | ⟨1, _⟩ => show win0_2.index t (1 : Fin 2) * 4096 + 1 * j.val = j.val; omega

/-- The one-column windows: the ground-truth score's block, -/
private theorem blk3 (c : Dev nD) (t : Fin cfg0.N) (p : Fin 256) (q : Fin 1) :
    (iblk m c 3 t : Vec Ideal S256x1 .f32) (ix2 p q)
      = (V m c main_v7 : FVec Ideal S16384x1 .f32) (ix2 (row t p) q) := by
  obtain ⟨-, -, -, -, -, -, e0, e1, -⟩ := idx_facts t
  unfold iblk
  rw [View.read_apply]
  show V m c main_v7 _ = V m c main_v7 _
  refine congrArg (V m c main_v7) ?_
  funext a
  apply Fin.ext
  match a with
  | ⟨0, _⟩ => show win0_3.index t (0 : Fin 2) * 256 + 1 * p.val = 256 * t.val + p.val; omega
  | ⟨1, _⟩ => show win0_3.index t (1 : Fin 2) * 1 + 1 * q.val = q.val; omega

/-- the ground-truth weight's, -/
private theorem blk4 (c : Dev nD) (t : Fin cfg0.N) (p : Fin 256) (q : Fin 1) :
    (iblk m c 4 t : Vec Ideal S256x1 .f32) (ix2 p q)
      = (V m c main_v8 : FVec Ideal S16384x1 .f32) (ix2 (row t p) q) := by
  obtain ⟨-, -, -, -, -, -, -, -, e0, e1, -⟩ := idx_facts t
  unfold iblk
  rw [View.read_apply]
  show V m c main_v8 _ = V m c main_v8 _
  refine congrArg (V m c main_v8) ?_
  funext a
  apply Fin.ext
  match a with
  | ⟨0, _⟩ => show win0_4.index t (0 : Fin 2) * 256 + 1 * p.val = 256 * t.val + p.val; omega
  | ⟨1, _⟩ => show win0_4.index t (1 : Fin 2) * 1 + 1 * q.val = q.val; omega

/-- the ground-truth validity's, -/
private theorem blk5 (c : Dev nD) (t : Fin cfg0.N) (p : Fin 256) (q : Fin 1) :
    (iblk m c 5 t : Vec Ideal S256x1 .f32) (ix2 p q)
      = (V m c main_v10 : FVec Ideal S16384x1 .f32) (ix2 (row t p) q) := by
  obtain ⟨-, -, -, -, -, -, -, -, -, -, e0, e1, -⟩ := idx_facts t
  unfold iblk
  rw [View.read_apply]
  show V m c main_v10 _ = V m c main_v10 _
  refine congrArg (V m c main_v10) ?_
  funext a
  apply Fin.ext
  match a with
  | ⟨0, _⟩ => show win0_5.index t (0 : Fin 2) * 256 + 1 * p.val = 256 * t.val + p.val; omega
  | ⟨1, _⟩ => show win0_5.index t (1 : Fin 2) * 1 + 1 * q.val = q.val; omega

/-- and the in-range flag's. -/
private theorem blk6 (c : Dev nD) (t : Fin cfg0.N) (p : Fin 256) (q : Fin 1) :
    (iblk m c 6 t : Vec Ideal S256x1 .f32) (ix2 p q)
      = (V m c main_v12 : FVec Ideal S16384x1 .f32) (ix2 (row t p) q) := by
  obtain ⟨-, -, -, -, -, -, -, -, -, -, -, -, e0, e1, -⟩ := idx_facts t
  unfold iblk
  rw [View.read_apply]
  show V m c main_v12 _ = V m c main_v12 _
  refine congrArg (V m c main_v12) ?_
  funext a
  apply Fin.ext
  match a with
  | ⟨0, _⟩ => show win0_6.index t (0 : Fin 2) * 256 + 1 * p.val = 256 * t.val + p.val; omega
  | ⟨1, _⟩ => show win0_6.index t (1 : Fin 2) * 1 + 1 * q.val = q.val; omega

/-! ## One row of the two output blocks, from what the seven input blocks hold in that row -/

/-- If row `p` of the input blocks holds row `r`'s numbers, row `p` of the loss block holds row `r`'s loss. -/
private theorem loss_row (x0 x1 : Vec Ideal S256x4096 .f32) (x2 : Vec Ideal S256x4096 .i32) (x3 x4 x5 x6 : Vec Ideal S256x1 .f32)
    (s w : FVec Ideal SBN .f32) (gi : IVec SB 32) (vb : IVec SBN 1) (r : Fin 16384) (p : Fin 256)
    (h0 : ∀ j, x0 (ix2 p j) = s (ix2 r j)) (h1 : ∀ j, x1 (ix2 p j) = w (ix2 r j))
    (h2 : ∀ j, w01 (x2 (ix2 p j)) = b01 (vb (ix2 r j)))
    (h3 : x3 (ix2 p 0) = pos s gi r) (h4 : x4 (ix2 p 0) = wgt w gi r)
    (h5 : x5 (ix2 p 0) = b01 (gvb gi vb r)) (h6 : x6 (ix2 p 0) = b01 (inrw (gi (ix1 r)))) :
    out0_7 (F := Ideal) x0 x1 x2 x3 x4 x5 x6 (ix2 p 0) = kLoss s w gi vb r := by
  rw [MirlBody.out_loss_apply, h3, h4, h5, h6, funext h0, funext h1, funext h2]
  rfl

/-- And row `p` of the flag block holds row `r`'s flag. -/
private theorem ok_row (x0 x1 : Vec Ideal S256x4096 .f32) (x2 : Vec Ideal S256x4096 .i32) (x3 x4 x5 x6 : Vec Ideal S256x1 .f32)
    (gi : IVec SB 32) (vb : IVec SBN 1) (r : Fin 16384) (p : Fin 256)
    (h5 : x5 (ix2 p 0) = b01 (gvb gi vb r)) (h6 : x6 (ix2 p 0) = b01 (inrw (gi (ix1 r)))) :
    out0_8 (F := Ideal) x0 x1 x2 x3 x4 x5 x6 (ix2 p 0) = kOk gi vb r := by
  rw [MirlBody.out_ok_apply, h5, h6]
  rfl

/-! ## The two output arrays -/

/-- The loss array the blocks add up to, and the flag array. -/
private abbrev lossArr (c : Dev nD) : FVec Ideal S16384x1 .f32 :=
  fun i => kLoss (argS m c) (argW m c) (argG m c) (argV m c) (i 0)
private abbrev okArr (c : Dev nD) : FVec Ideal S16384x1 .f32 :=
  fun i => kOk (argG m c) (argV m c) (i 0)

/-- Row `p` of what point `t` leaves in the loss window is the loss of row `256 t + p`. -/
private theorem loss_at (c : Dev nD) (t : Fin cfg0.N) (p : Fin 256) :
    out0_7 (F := Ideal) (iblk m c 0 t) (iblk m c 1 t) (iblk m c 2 t) (iblk m c 3 t) (iblk m c 4 t) (iblk m c 5 t) (iblk m c 6 t) (ix2 p 0)
      = kLoss (argS m c) (argW m c) (argG m c) (argV m c) (row t p) :=
  loss_row (iblk m c 0 t) (iblk m c 1 t) (iblk m c 2 t) (iblk m c 3 t) (iblk m c 4 t) (iblk m c 5 t) (iblk m c 6 t)
    (argS m c) (argW m c) (argG m c) (argV m c) (row t p) p
    (fun j => (blk0 m c t p j).trans (congrFun (V_main_arg0 m c) (ix2 (row t p) j)))
    (fun j => (blk1 m c t p j).trans (congrFun (V_main_arg1 m c) (ix2 (row t p) j)))
    (fun j => (congrArg w01 (blk2 m c t p j)).trans (V_valid m c (row t p) j))
    ((blk3 m c t p 0).trans (V_pos m c (row t p)))
    ((blk4 m c t p 0).trans (V_wgt m c (row t p)))
    ((blk5 m c t p 0).trans (V_gv m c (row t p)))
    ((blk6 m c t p 0).trans (V_ir m c (row t p)))

private theorem ok_at (c : Dev nD) (t : Fin cfg0.N) (p : Fin 256) :
    out0_8 (F := Ideal) (iblk m c 0 t) (iblk m c 1 t) (iblk m c 2 t) (iblk m c 3 t) (iblk m c 4 t) (iblk m c 5 t) (iblk m c 6 t) (ix2 p 0)
      = kOk (argG m c) (argV m c) (row t p) :=
  ok_row (iblk m c 0 t) (iblk m c 1 t) (iblk m c 2 t) (iblk m c 3 t) (iblk m c 4 t) (iblk m c 5 t) (iblk m c 6 t)
    (argG m c) (argV m c) (row t p) p
    ((blk5 m c t p 0).trans (V_gv m c (row t p)))
    ((blk6 m c t p 0).trans (V_ir m c (row t p)))

/-- Every index of a [256, 1] block is its row and column 0. -/
private theorem blockIdx (y : S256x1.Idx) : ∃ p : Fin 256, y = ix2 p (0 : Fin 1) := by
  refine ⟨y 0, ?_⟩
  funext a
  match a with
  | ⟨0, _⟩ => rfl
  | ⟨1, _⟩ =>
    have h : (y 1).val < 1 := (y 1).isLt
    exact Fin.ext (by show (y 1).val = 0; omega)

/-- What point `t` leaves in the loss window, at any index of the block. -/
private theorem loss_pt (c : Dev nD) (t : Fin cfg0.N) (y : S256x1.Idx) :
    out0_7 (F := Ideal) (iblk m c 0 t) (iblk m c 1 t) (iblk m c 2 t) (iblk m c 3 t) (iblk m c 4 t) (iblk m c 5 t) (iblk m c 6 t) y
      = kLoss (argS m c) (argW m c) (argG m c) (argV m c) (row t (y 0)) := by
  obtain ⟨p, rfl⟩ := blockIdx y
  exact loss_at m c t p

private theorem ok_pt (c : Dev nD) (t : Fin cfg0.N) (y : S256x1.Idx) :
    out0_8 (F := Ideal) (iblk m c 0 t) (iblk m c 1 t) (iblk m c 2 t) (iblk m c 3 t) (iblk m c 4 t) (iblk m c 5 t) (iblk m c 6 t) y
      = kOk (argG m c) (argV m c) (row t (y 0)) := by
  obtain ⟨p, rfl⟩ := blockIdx y
  exact ok_at m c t p

/-- What point `t` writes back into the loss array is block `t` of the loss array. -/
private theorem flushed7_eq (c : Dev nD) (t : Fin cfg0.N) :
    (dats m 0 c).flushed 7 t = ((cfg0.win 7).blk t).view.read (Elt Ideal) (lossArr m c) := by
  show (cfg0.win 7).cut (grid0.coords t) ((dats m 0 c).after 7 t) = _
  rw [after0_7]
  funext y
  obtain ⟨-, -, -, -, -, -, -, -, -, -, -, -, -, -, e0, -⟩ := idx_facts t
  have hr : (((cfg0.win 7).blk t).view.emb y) 0 = row t (y 0) := by
    apply Fin.ext
    show win0_7.index t (0 : Fin 2) * 256 + 1 * (y 0).val = 256 * t.val + (y 0).val
    omega
  show out0_7 (F := Ideal) (iblk m c 0 t) (iblk m c 1 t) (iblk m c 2 t) (iblk m c 3 t) (iblk m c 4 t) (iblk m c 5 t) (iblk m c 6 t) y
      = kLoss (argS m c) (argW m c) (argG m c) (argV m c) ((((cfg0.win 7).blk t).view.emb y) 0)
  rw [hr]
  exact loss_pt m c t y

/-- What point `t` writes back into the flag array is block `t` of the flag array. -/
private theorem flushed8_eq (c : Dev nD) (t : Fin cfg0.N) :
    (dats m 0 c).flushed 8 t = ((cfg0.win 8).blk t).view.read (Elt Ideal) (okArr m c) := by
  show (cfg0.win 8).cut (grid0.coords t) ((dats m 0 c).after 8 t) = _
  rw [after0_8]
  funext y
  obtain ⟨-, -, -, -, -, -, -, -, -, -, -, -, -, -, -, -, e0, -⟩ := idx_facts t
  have hr : (((cfg0.win 8).blk t).view.emb y) 0 = row t (y 0) := by
    apply Fin.ext
    show win0_8.index t (0 : Fin 2) * 256 + 1 * (y 0).val = 256 * t.val + (y 0).val
    omega
  show out0_8 (F := Ideal) (iblk m c 0 t) (iblk m c 1 t) (iblk m c 2 t) (iblk m c 3 t) (iblk m c 4 t) (iblk m c 5 t) (iblk m c 6 t) y
      = kOk (argG m c) (argV m c) ((((cfg0.win 8).blk t).view.emb y) 0)
  rw [hr]
  exact ok_pt m c t y

/-- An index of the loss array is in point `t`'s block iff each coordinate is in the block's range on its axis. -/
private theorem mem_blk7 (t : Fin cfg0.N) (i : S16384x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v14_0).slice (win0_7.rect t)).set ↔ _
  rw [View.set_slice_whole, Rect.mem_set_unit]
  exact Iff.rfl

private theorem mem_blk8 (t : Fin cfg0.N) (i : S16384x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_v14_1).slice (win0_8.rect t)).set ↔ _
  rw [View.set_slice_whole, Rect.mem_set_unit]
  exact Iff.rfl

/-- Row `r` is in the block of point `r / 256`: the 64 blocks cover the loss array. -/
private theorem cover7 (i : S16384x1.Idx) :
    ∃ t : Fin cfg0.N, (cfg0.win 7).flush t = true ∧ i ∈ ((cfg0.win 7).blk t).view.set := by
  have hi0 : (i 0).val < 16384 := (i 0).isLt
  have hi1 : (i 1).val < 1 := (i 1).isLt
  have hN : cfg0.N = 64 := N_0
  obtain ⟨t, ht⟩ : ∃ t : Fin cfg0.N, t.val = (i 0).val / 256 := ⟨⟨(i 0).val / 256, by omega⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1 ≤ (i 1).val ∧ (i 1).val < win0_7.index t (1 : Fin 2) * 1 + 1; omega

private theorem cover8 (i : S16384x1.Idx) :
    ∃ t : Fin cfg0.N, (cfg0.win 8).flush t = true ∧ i ∈ ((cfg0.win 8).blk t).view.set := by
  have hi0 : (i 0).val < 16384 := (i 0).isLt
  have hi1 : (i 1).val < 1 := (i 1).isLt
  have hN : cfg0.N = 64 := N_0
  obtain ⟨t, ht⟩ : ∃ t : Fin cfg0.N, t.val = (i 0).val / 256 := ⟨⟨(i 0).val / 256, by omega⟩, rfl⟩
  obtain ⟨-, -, -, -, -, -, -, -, -, -, -, -, -, -, -, -, e0, e1⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1 ≤ (i 1).val ∧ (i 1).val < win0_8.index t (1 : Fin 2) * 1 + 1; omega

/-- The loss array after the region: row `r` holds the kernel's row loss. -/
theorem arr_loss (c : Dev nD) :
    ((dats m 0 c).arrAt 7 cfg0.N : FVec Ideal S16384x1 .f32)
      = fun i => kLoss (argS m c) (argW m c) (argG m c) (argV m c) (i 0) :=
  (dats m 0 c).arrAt_eq_of_cover 7 (lossArr m c) (fun t _ => flushed7_eq m c t) cover7

/-- The flag array after the region: row `r` holds the kernel's row flag. -/
theorem arr_ok (c : Dev nD) :
    ((dats m 0 c).arrAt 8 cfg0.N : FVec Ideal S16384x1 .f32)
      = fun i => kOk (argG m c) (argV m c) (i 0) :=
  (dats m 0 c).arrAt_eq_of_cover 8 (okArr m c) (fun t _ => flushed8_eq m c t) cover8

/-! ## The lines after the region -/

/-- The host's sum of a one-column array over both axes, from zero, is the sum of its 16384 rows. -/
private theorem hostSum_apply (x : FVec Ideal S16384x1 .f32) (i : S_.Idx) :
    Host.reduceAdd x (constant (F := Ideal) S_ .f32 0x00000000#32) reducesTo_S16384x1_S_d0_1 h_S_ i
      = ∑ r : Fin 16384, x (ix2 r 0) := by
  simp only [Host.reduceAdd, Ideal.hostReduceAdd_def]
  refine (Ideal.hostReduceAdd_total reducesTo_S16384x1_S_d0_1 (fun b => b.elim0) x _ i).trans ?_
  rw [constant_apply, Ideal.ofBits_zero_f32, zero_add, sum_idx2]
  exact Finset.sum_congr rfl fun r _ => Fin.sum_univ_one _

/-- A select on "greater than", at the extended reals. -/
private theorem select_ogt (x y a b : EReal) :
    Scalar.select (Ideal.cmp .ogt x y) a b = if y < x then a else b := by
  by_cases h : y < x
  · rw [if_pos h, show Ideal.cmp .ogt x y = 1#1 from by simp [Ideal.cmp, h]]; exact select_one a b
  · rw [if_neg h, show Ideal.cmp .ogt x y = 0#1 from by simp [Ideal.cmp, h]]; exact select_zero a b

/-- The lines after the region that compute the ranking loss, as one function of the loss array `L` and the flag array
    `K`: both are summed, and the losses' sum is divided by the flags' sum (floored at one) where that sum is positive. -/
private def tailRank (L K : FVec Ideal S16384x1 .f32) : FVec Ideal S_ .f32 :=
  select
    (cmpf .ogt (Host.reduceAdd K (constant (F := Ideal) S_ .f32 0x00000000#32) reducesTo_S16384x1_S_d0_1 h_S_)
      (constant (F := Ideal) S_ .f32 0x00000000#32))
    (Host.divf (Host.reduceAdd L (constant (F := Ideal) S_ .f32 0x00000000#32) reducesTo_S16384x1_S_d0_1 h_S_)
      (maximumf (Host.reduceAdd K (constant (F := Ideal) S_ .f32 0x00000000#32) reducesTo_S16384x1_S_d0_1 h_S_)
        (constant (F := Ideal) S_ .f32 0x3F800000#32)))
    (Host.reduceAdd L (constant (F := Ideal) S_ .f32 0x00000000#32) reducesTo_S16384x1_S_d0_1 h_S_)

/-- The host's quotient read at an index. -/
private theorem hostDivf_at (a b : FVec Ideal S_ .f32) (i : S_.Idx) : Host.divf a b i = Ideal.div (a i) (b i) := rfl

/-- Read at its one index. -/
private theorem tailRank_apply (L K : FVec Ideal S16384x1 .f32) (i : S_.Idx) :
    tailRank L K i
      = if 0 < ∑ r : Fin 16384, K (ix2 r 0)
        then Ideal.div (∑ r : Fin 16384, L (ix2 r 0)) (max (∑ r : Fin 16384, K (ix2 r 0)) one)
        else ∑ r : Fin 16384, L (ix2 r 0) := by
  unfold tailRank
  rw [select_apply, cmpf_apply, Ideal.cmpf_def, hostDivf_at, maximumf_apply, hostSum_apply L i, hostSum_apply K i,
    constant_apply, constant_apply, Ideal.ofBits_zero_f32, select_ogt]
  rfl

/-- The total, as one function of the two arrays: the ranking loss plus the rejection weight times zero. -/
private def tailTotal (L K : FVec Ideal S16384x1 .f32) : FVec Ideal S_ .f32 :=
  addf (tailRank L K) (mulf (constant (F := Ideal) S_ .f32 0x3DCCCCCD#32) (constant (F := Ideal) S_ .f32 0x00000000#32))

set_option maxHeartbeats 1000000 in
/-- What the lines after the region leave in the ranking loss's buffer, from any contents `W` at the region's exit. -/
private theorem after_v20 (W : Valuation τ sig (Elt Ideal)) :
    (StableHlo.after (List.flatten [hostOps1, hostOps1_1, hostOps1_2]) W (Proc.devRef .tc main_v20) : FVec Ideal S_ .f32)
      = tailRank (W (Proc.devRef .tc main_v14_0)) (W (Proc.devRef .tc main_v14_1)) := by
  simp only [hostOps1, hostOps1_1, hostOps1_2, List.flatten_cons, List.flatten_nil, List.append_nil, List.cons_append, List.nil_append]
  after_results
  simp only [StableHlo.TRef.ofBuf, StableHlo.TRef.toBuf, cast_eq]
  rfl

set_option maxHeartbeats 1000000 in
/-- In the total's buffer. -/
private theorem after_v22 (W : Valuation τ sig (Elt Ideal)) :
    (StableHlo.after (List.flatten [hostOps1, hostOps1_1, hostOps1_2]) W (Proc.devRef .tc main_v22) : FVec Ideal S_ .f32)
      = tailTotal (W (Proc.devRef .tc main_v14_0)) (W (Proc.devRef .tc main_v14_1)) := by
  simp only [hostOps1, hostOps1_1, hostOps1_2, List.flatten_cons, List.flatten_nil, List.append_nil, List.cons_append, List.nil_append]
  after_results
  simp only [StableHlo.TRef.ofBuf, StableHlo.TRef.toBuf, cast_eq]
  rfl

set_option maxHeartbeats 1000000 in
/-- In the rejection term's buffer: the constant zero. -/
private theorem after_cst8 (W : Valuation τ sig (Elt Ideal)) :
    (StableHlo.after (List.flatten [hostOps1, hostOps1_1, hostOps1_2]) W (Proc.devRef .tc main_cst_8) : FVec Ideal S_ .f32)
      = constant (F := Ideal) S_ .f32 0x00000000#32 := by
  simp only [hostOps1, hostOps1_1, hostOps1_2, List.flatten_cons, List.flatten_nil, List.append_nil, List.cons_append, List.nil_append]
  after_results

/-- The loss array and the flag array as the lines after the region find them. -/
private theorem exit_loss (c : Dev nD) :
    Pipeline.withArrays (cfgs 0).spec c (V0 m c) (fun w => (dats m 0 c).arrAt w (cfgs 0).N) (Proc.devRef .tc main_v14_0)
      = lossArr m c :=
  (Pipeline.withArrays_arr spec0 launch0.win.arr_inj c _ _ 7).trans (arr_loss m c)
private theorem exit_ok (c : Dev nD) :
    Pipeline.withArrays (cfgs 0).spec c (V0 m c) (fun w => (dats m 0 c).arrAt w (cfgs 0).N) (Proc.devRef .tc main_v14_1)
      = okArr m c :=
  (Pipeline.withArrays_arr spec0 launch0.win.arr_inj c _ _ 8).trans (arr_ok m c)

/-- The ranking loss the lines after the region leave. -/
theorem tail_ranking (c : Dev nD) :
    (Pipeline.afterTail₀ cfgs (dats m) 0 (V0 m) [hostOps1, hostOps1_1, hostOps1_2] c main_v20 : FVec Ideal S_ .f32)
      = fun _ => kRanking (argS m c) (argW m c) (argG m c) (argV m c) := by
  unfold Pipeline.afterTail₀
  refine (after_v20 _).trans ?_
  refine (congrArg₂ tailRank (exit_loss m c) (exit_ok m c)).trans ?_
  funext i
  rw [tailRank_apply]
  rfl

/-- The total: the ranking loss plus the rejection weight times zero. -/
theorem tail_total (c : Dev nD) :
    (Pipeline.afterTail₀ cfgs (dats m) 0 (V0 m) [hostOps1, hostOps1_1, hostOps1_2] c main_v22 : FVec Ideal S_ .f32)
      = fun _ => kRanking (argS m c) (argW m c) (argG m c) (argV m c) + lambdaRej * 0 := by
  unfold Pipeline.afterTail₀
  refine (after_v22 _).trans ?_
  refine (congrArg₂ tailTotal (exit_loss m c) (exit_ok m c)).trans ?_
  funext i
  unfold tailTotal
  rw [addf_apply, mulf_apply, constant_apply, constant_apply, Ideal.ofBits_zero_f32, tailRank_apply]
  rfl

/-- The rejection term: zero. -/
theorem tail_rej (c : Dev nD) :
    (Pipeline.afterTail₀ cfgs (dats m) 0 (V0 m) [hostOps1, hostOps1_1, hostOps1_2] c main_cst_8 : FVec Ideal S_ .f32)
      = fun _ => (0 : EReal) := by
  unfold Pipeline.afterTail₀
  refine (after_cst8 _).trans ?_
  funext i
  rw [constant_apply, Ideal.ofBits_zero_f32]

/-- THE KERNEL'S RUN: every weakly fair execution ends with the three results at the specification's values and the
    arguments as launched. -/
theorem run : θ_run defs (onTc (τ := τ) (main (F := Ideal))) ⟨m, fun _ => 0, ρ⟩ (fun r => ∀ c : Dev nD,
      r.2.mem ((c.tc : Thread nD τ).loc main_v22) = (fun _ => kRanking (argS m c) (argW m c) (argG m c) (argV m c) + lambdaRej * 0)
      ∧ r.2.mem ((c.tc : Thread nD τ).loc main_v20) = (fun _ => kRanking (argS m c) (argW m c) (argG m c) (argV m c))
      ∧ r.2.mem ((c.tc : Thread nD τ).loc main_cst_8) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v22 (Pipeline.mem_restRefs_of main_v22 (by decide) (by decide))).trans (tail_total m c),
      ((h c).2 main_v20 (Pipeline.mem_restRefs_of main_v20 (by decide) (by decide))).trans (tail_ranking m c),
      ((h c).2 main_cst_8 (Pipeline.mem_restRefs_of main_cst_8 (by decide) (by decide))).trans (tail_rej m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.MirlValue

end
-- ==== Proof.RefRow.lean ====
/-
  THE REFERENCE'S ROW. Read at row `r`, the reference's masked row loss is the specification's `rLoss r` and its row
  flag is set exactly when the row counts (`okP r`): the two takes read the ground-truth column (the clipped word is in
  range, so the take neither wraps nor fills), the mask's integer sum along the row is the number of negatives, which is
  at most 4096 and so converts to the real number it is.
-/
import proofs.«429888_j29583734735545_3_alg».proof.Proof.RefRead
import proofs.«429888_j29583734735545_3_alg».proof.Proof.Spec
import proofs.«429888_j29583734735545_3_alg».proof.Proof.ClipFacts
import proofs.«429888_j29583734735545_3_alg».proof.Proof.LibTakeAlongAxis
import Idealize.ShloMosaic.Lib.StableHlo.Predicate
import Idealize.ShloMosaic.Lib.ValueLayout
import Idealize.ShloMosaic.Lib.Affine

noncomputable section

open scoped BigOperators

namespace Cert.ReferenceIdeal.MirlRow

open Cert.ReferenceIdeal Cert.ReferenceIdeal.Gen Cert.ReferenceIdeal.ReadP Idealize.ShloMosaic Idealize.ShloMosaic.ValueIdx Cert.Mirl

/-! ## Words and folds -/

/-- A left fold by `and` from 1 over words that are all 1 is 1. -/
private theorem foldl_andi_ones {ι : Type} (x : ι → BitVec 1) (hx : ∀ i, x i = 1#1) :
    ∀ l : List ι, l.foldl (fun r i => IntOp.andi r (x i)) 1#1 = 1#1
  | [] => rfl
  | a :: l => by
    show l.foldl (fun r i => IntOp.andi r (x i)) (IntOp.andi 1#1 (x a)) = 1#1
    rw [hx a, show IntOp.andi (1#1 : BitVec 1) 1#1 = 1#1 from by decide]
    exact foldl_andi_ones x hx l

/-- A reduction by `and` from 1 of an array whose every word is 1 is 1 at every result index. -/
private theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x hx _

/-- A one-bit word converted to a float is the number 0 or 1 it is. -/
private theorem uitofp_bit (b : BitVec 1) : FloatOps.uitofp (F := Ideal) .f32 b = b01 b := by
  rcases BitVec.eq_zero_or_eq_one b with rfl | rfl
  · show (((0 : ℕ) : ℝ) : EReal) = b01 0#1
    unfold b01
    rw [if_neg (by decide), Nat.cast_zero, EReal.coe_zero]
  · show (((1 : ℕ) : ℝ) : EReal) = b01 1#1
    unfold b01
    rw [if_pos rfl, Nat.cast_one, EReal.coe_one]

variable (x0 x1 : FVec Ideal SBN .f32) (x2 : IVec SB 32) (x3 : IVec SBN 1)

/-! ## The index word: in range (`%4`), and clipped (`%5`) -/

private theorem v4_at (i : S16384.Idx) : val_main_v4 (F := Ideal) x2 i = inrw (x2 i) := by
  rw [val_main_v4_apply, val_main_v1_apply, val_main_v0_apply, val_main_c_apply, val_main_v3_apply, val_main_v2_apply,
    val_main_c_0_apply]
  rfl

private theorem v5_at (i : S16384.Idx) : val_main_v5 (F := Ideal) x2 i = clipw (x2 i) := by
  rw [val_main_v5_apply, val_main_call0_v4_apply, val_main_call0_v3_apply, val_main_c_2_apply, val_main_call0_v2_apply,
    val_main_call0_v1_apply, val_main_call0_v0_apply, val_main_c_1_apply]
  rfl

/-! ## The take of the validity bits (`%7`, `%8`): the bit at the ground-truth column -/

/-- The take's start index, wrapped: the clipped word (a clipped word is not negative). -/
private theorem c1v4_at (i : S16384x1.Idx) : val_main_call1_v4 (F := Ideal) x2 i = clipw (x2 (idx_main_v6 i)) := by
  rw [val_main_call1_v4_apply, val_main_call1_v1_apply, val_main_call1_v3_apply, val_main_call1_v0_apply,
    val_main_call1_c_apply, val_main_call1_v2_apply, val_main_call1_c_0_apply, val_main_v6_apply, v5_at]
  exact wrap_clipw _

private theorem c1v5_at (i : S16384x1x1.Idx) :
    val_main_call1_v5 (F := Ideal) x2 i = clipw (x2 (idx_main_v6 (idx_main_call1_v5 i))) := by
  rw [val_main_call1_v5_apply, c1v4_at]

/-- The take's bounds test passes everywhere (a clipped word lies in [0, 4095]). -/
private theorem c1v11_at (i : S16384x1x1.Idx) : val_main_call1_v11 (F := Ideal) x2 i = 1#1 := by
  rw [val_main_call1_v11_apply, val_main_call1_v7_apply, val_main_call1_v10_apply, val_main_call1_v6_apply,
    val_main_call1_c_2_apply, val_main_call1_v9_apply, val_main_call1_v8_apply, val_main_call1_c_1_apply, c1v5_at]
  exact inb_clipw _

private theorem c1v12_at (j : S16384x1.Idx) : val_main_call1_v12 (F := Ideal) x2 j = 1#1 := by
  unfold val_main_call1_v12
  exact reduce_andi_ones _ _ _ _ j (c1v11_at x2) (val_main_call1_c_3_apply _)

/-- Row `r`'s start index sits at row `r` of the index words. -/
private theorem idx_c1 (r : Fin 16384) :
    idx_main_v6 (idx_main_call1_v5 (ix3 r (0 : Fin 1) (0 : Fin 1))) = ix1 r := by
  funext a
  match a with
  | ⟨0, _⟩ => exact Fin.ext (by show ((r.val * 1 + 0) * 1 + 0) / 1 = r.val; omega)

private theorem v7_at (r : Fin 16384) : val_main_v7 (F := Ideal) x2 x3 (ix2 r (0 : Fin 1)) = gvb x2 x3 r := by
  rw [val_main_v7_apply, c1v12_at, select_one]
  unfold val_main_call1_v13
  refine (Cert.LibTakeAlongAxis.gather_take_along_axis1 (by decide) _ x3 (val_main_call1_v5 (F := Ideal) x2) r).trans ?_
  refine congrArg (fun c : Fin 4096 => x3 (ix2 r c)) (Fin.ext ?_)
  show min (val_main_call1_v5 (F := Ideal) x2 (ix3 r 0 0)).toInt.toNat (4096 - 1)
    = min (clipw (x2 (ix1 r))).toInt.toNat (4096 - 1)
  rw [c1v5_at, idx_c1]

private theorem idx_v8 (r : Fin 16384) : idx_main_v8 (ix1 r) = ix2 r (0 : Fin 1) := by
  funext a
  match a with
  | ⟨0, _⟩ => exact Fin.ext (by show r.val / 1 = r.val; omega)
  | ⟨1, _⟩ => rfl

private theorem v8_at (r : Fin 16384) : val_main_v8 (F := Ideal) x2 x3 (ix1 r) = gvb x2 x3 r := by
  rw [val_main_v8_apply, idx_v8, v7_at]

/-- The reference's row flag (`%9`): set exactly when the row counts. -/
theorem flag_apply (r : Fin 16384) : val_main_v9 (F := Ideal) x2 x3 (ix1 r) = 1#1 ↔ okP x2 x3 r := by
  rw [val_main_v9_apply, v4_at, v8_at]
  exact IntOp.andi_eq_one

/-! ## The take of the scores (`%11`): the score at the ground-truth column -/

private theorem c2v4_at (i : S16384x1.Idx) : val_main_call2_v4 (F := Ideal) x2 i = clipw (x2 (idx_main_v10 i)) := by
  rw [val_main_call2_v4_apply, val_main_call2_v1_apply, val_main_call2_v3_apply, val_main_call2_v0_apply,
    val_main_call2_c_apply, val_main_call2_v2_apply, val_main_call2_c_0_apply, val_main_v10_apply, v5_at]
  exact wrap_clipw _

private theorem c2v5_at (i : S16384x1x1.Idx) :
    val_main_call2_v5 (F := Ideal) x2 i = clipw (x2 (idx_main_v10 (idx_main_call2_v5 i))) := by
  rw [val_main_call2_v5_apply, c2v4_at]

private theorem c2v11_at (i : S16384x1x1.Idx) : val_main_call2_v11 (F := Ideal) x2 i = 1#1 := by
  rw [val_main_call2_v11_apply, val_main_call2_v7_apply, val_main_call2_v10_apply, val_main_call2_v6_apply,
    val_main_call2_c_2_apply, val_main_call2_v9_apply, val_main_call2_v8_apply, val_main_call2_c_1_apply, c2v5_at]
  exact inb_clipw _

private theorem c2v12_at (j : S16384x1.Idx) : val_main_call2_v12 (F := Ideal) x2 j = 1#1 := by
  unfold val_main_call2_v12
  exact reduce_andi_ones _ _ _ _ j (c2v11_at x2) (val_main_call2_c_3_apply _)

private theorem idx_c2 (r : Fin 16384) :
    idx_main_v10 (idx_main_call2_v5 (ix3 r (0 : Fin 1) (0 : Fin 1))) = ix1 r := by
  funext a
  match a with
  | ⟨0, _⟩ => exact Fin.ext (by show ((r.val * 1 + 0) * 1 + 0) / 1 = r.val; omega)

private theorem v11_at (r : Fin 16384) : val_main_v11 (F := Ideal) x0 x2 (ix2 r (0 : Fin 1)) = pos x0 x2 r := by
  rw [val_main_v11_apply, c2v12_at, select_one]
  unfold val_main_call2_v13
  refine (Cert.LibTakeAlongAxis.gather_take_along_axis1 (by decide) _ x0 (val_main_call2_v5 (F := Ideal) x2) r).trans ?_
  refine congrArg (fun c : Fin 4096 => x0 (ix2 r c)) (Fin.ext ?_)
  show min (val_main_call2_v5 (F := Ideal) x2 (ix3 r 0 0)).toInt.toNat (4096 - 1)
    = min (clipw (x2 (ix1 r))).toInt.toNat (4096 - 1)
  rw [c2v5_at, idx_c2]

/-! ## The negatives' mask (`%18`), its count (`%26`) and the masked hinge sum (`%29`) -/

private theorem v18_at (r : Fin 16384) (j : Fin 4096) : val_main_v18 (F := Ideal) x2 x3 (ix2 r j) = negb x2 x3 r j := by
  rw [val_main_v18_apply, val_main_v17_apply, val_main_v15_apply, val_main_v13_apply, val_main_v12_apply,
    val_main_v16_apply, val_main_v14_apply, v5_at]
  have h : idx_main_v14 (idx_main_v16 (ix2 r j)) = ix1 r := by
    funext a
    match a with
    | ⟨0, _⟩ => rfl
  rw [h]
  rfl

/-- The row has at most 4096 negatives. -/
private theorem rCnt_le (r : Fin 16384) : rCnt x2 x3 r ≤ 4096 := by
  unfold rCnt
  exact (Finset.card_le_univ _).trans (Fintype.card_fin 4096).le

/-- The mask's integer sum along row `r` is the number of the row's negatives. -/
private theorem cnt_toNat (r : Fin 16384) : (val_main_v26 (F := Ideal) x2 x3 (ix1 r)).toNat = rCnt x2 x3 r := by
  refine (StableHlo.Predicate.toNat_reduce_count_cols (n := 16384) (m := 4096) (by norm_num)
    (val_main_v18 (F := Ideal) x2 x3) natLt_1_32 reducesTo_S16384x4096_S16384_d1 h_S_ (ix1 r)).trans ?_
  unfold rCnt
  refine congrArg Finset.card (Finset.filter_congr fun q _ => ?_)
  have hq : StableHlo.Predicate.ij ((ix1 r : S16384.Idx) 0) q = ix2 r q := by
    funext d
    match d with
    | ⟨0, _⟩ => rfl
    | ⟨1, _⟩ => rfl
  exact iff_of_eq (congrArg (· = 1#1) ((congrArg (val_main_v18 (F := Ideal) x2 x3) hq).trans (v18_at x2 x3 r q)))

private theorem v28_at (r : Fin 16384) (j : Fin 4096) :
    val_main_v28 (F := Ideal) x0 x1 x2 x3 (ix2 r j)
      = max (margin - (pos x0 x2 r - x0 (ix2 r j))) 0 * x1 (ix2 r j) * b01 (negb x2 x3 r j) := by
  have h19 : idx_main_v19 (ix2 r j) = ix2 r (0 : Fin 1) := by
    funext a
    match a with
    | ⟨0, _⟩ => rfl
    | ⟨1, _⟩ => rfl
  rw [val_main_v28_apply, val_main_v24_apply, val_main_v27_apply, val_main_v23_apply, val_main_v22_apply,
    val_main_v21_apply, val_main_cst_apply, val_main_v20_apply, val_main_v19_apply, val_main_call3_v0_apply,
    val_main_call3_cst_apply, v18_at, h19, v11_at, uitofp_bit,
    show FloatOps.ofBits (F := Ideal) .f32 0x00000000#32 = 0 from Ideal.ofBits_zero_f32]
  rfl

private theorem v29_at (r : Fin 16384) : val_main_v29 (F := Ideal) x0 x1 x2 x3 (ix1 r) = rNum x0 x1 x2 x3 r := by
  rw [val_main_v29_apply, val_main_cst_4_apply,
    show FloatOps.ofBits (F := Ideal) .f32 0x00000000#32 = 0 from Ideal.ofBits_zero_f32, zero_add]
  unfold rNum
  refine Finset.sum_congr rfl fun k _ => ?_
  have hk : idx_main_v29 (ix1 r) k = ix2 r k := by
    funext a
    match a with
    | ⟨0, _⟩ => rfl
    | ⟨1, _⟩ => rfl
  rw [hk, v28_at]

/-! ## The row loss -/

/-- The reference's row loss (`%37`). -/
theorem loss_apply (r : Fin 16384) : val_main_v37 (F := Ideal) x0 x1 x2 x3 (ix1 r) = rLoss x0 x1 x2 x3 r := by
  rw [val_main_v37_apply, val_main_v36_apply, val_main_v35_apply, val_main_v34_apply, val_main_c_6_apply,
    val_main_v33_apply, val_main_v32_apply, val_main_v31_apply, val_main_v30_apply, val_main_c_5_apply,
    val_main_call4_v1_apply, val_main_call4_v0_apply, val_main_cst_7_apply, v29_at]
  have hc := cnt_toNat x2 x3 r
  have hle := rCnt_le x2 x3 r
  have hflag := flag_apply x2 x3 r
  generalize val_main_v26 (F := Ideal) x2 x3 (ix1 r) = cnt at hc ⊢
  generalize val_main_v9 (F := Ideal) x2 x3 (ix1 r) = fl at hflag ⊢
  -- the count is a small non-negative word: it compares and converts as the number it is
  have hsgt : IntOp.cmpi .sgt cnt 0#32 = 1#1 ↔ 0 < rCnt x2 x3 r := by
    rw [StableHlo.Predicate.sgt_iff_toNat (by omega) (by decide), hc]
    rfl
  have hti : cnt.toInt = (rCnt x2 x3 r : ℤ) := by
    rw [StableHlo.Predicate.toInt_eq_toNat_of_lt (by omega), hc]
  have h1 : (1#32 : BitVec 32).toInt = 1 := by decide
  have hmax : (IntOp.maxsi cnt 1#32).toInt = ((max (rCnt x2 x3 r) 1 : ℕ) : ℤ) := by
    unfold IntOp.maxsi
    simp only [BitVec.slt, decide_eq_true_eq]
    by_cases h : (1#32 : BitVec 32).toInt < cnt.toInt
    · rw [if_pos h, hti]
      rw [h1, hti] at h
      rw [max_eq_left (by omega)]
    · rw [if_neg h, h1]
      rw [h1, hti] at h
      rw [max_eq_right (by omega)]
      rfl
  have hden : FloatOps.sitofp (F := Ideal) .f32 (IntOp.maxsi cnt 1#32)
      = (((max (rCnt x2 x3 r) 1 : ℕ) : ℝ) : EReal) := by
    show (((IntOp.maxsi cnt 1#32).toInt : ℝ) : EReal) = _
    rw [hmax, Int.cast_natCast]
  unfold rLoss
  by_cases hok : okP x2 x3 r ∧ 0 < rCnt x2 x3 r
  · rw [if_pos hok, hflag.mpr hok.1, hsgt.mpr hok.2, show IntOp.andi (1#1 : BitVec 1) 1#1 = 1#1 from by decide,
      select_one, hden]
    rfl
  · rw [if_neg hok]
    have hne : ¬ IntOp.andi fl (IntOp.cmpi .sgt cnt 0#32) = 1#1 := fun h =>
      hok ⟨hflag.mp (IntOp.andi_eq_one.mp h).1, hsgt.mp (IntOp.andi_eq_one.mp h).2⟩
    rw [eq_zero_of_ne_one hne, select_zero]
    exact Ideal.ofBits_zero_f32

end Cert.ReferenceIdeal.MirlRow

end
-- ==== Proof.RefTail.lean ====
/-
  THE REFERENCE'S RESULTS. The row losses' sum over the number of rows that count (an integer sum of at most 16384 flags,
  converted to the real number it is) when that number is positive, else the sum; the total adds the rejection weight
  times zero; the rejection term is zero.
-/
import proofs.«429888_j29583734735545_3_alg».proof.Proof.RefRead
import proofs.«429888_j29583734735545_3_alg».proof.Proof.Spec
import proofs.«429888_j29583734735545_3_alg».proof.Proof.RefRow
import Idealize.ShloMosaic.Lib.StableHlo.Predicate

noncomputable section

open scoped BigOperators

namespace Cert.ReferenceIdeal.MirlTail

open Cert.ReferenceIdeal Cert.ReferenceIdeal.Gen Cert.ReferenceIdeal.ReadP Idealize.ShloMosaic Idealize.ShloMosaic.ValueIdx Cert.Mirl

variable (x0 x1 : FVec Ideal SBN .f32) (x2 : IVec SB 32) (x3 : IVec SBN 1)

/-! ## Words: a count of at most 2³¹ − 1 set bits -/

/-- Summing the widened bits of a vector of `n` flags over its one axis gives the number of set flags (`n` below 2³² so the
    count does not wrap): the result has one index, so every flag reduces into it; a widened bit is worth 1 exactly
    when it is set; and a fold of word addition that does not wrap is the sum of the values. -/
private theorem count_all {n : ℕ} (hn : n < 2 ^ 32) (flags : IVec ⟨1, ![n]⟩ 1) (hw : 1 < 32)
    (h : (⟨1, ![n]⟩ : Shape).ReducesTo [0] ⟨0, ![]⟩) {u : Shape} (hu : 0 < u.numel) (i : (⟨0, ![]⟩ : Shape).Idx) :
    (Host.reduce IntOp.addi (extui 32 flags hw) (constantI u 32 0#32) h hu i).toNat
      = (Finset.univ.filter fun r : Fin n => flags (ix1 r) = 1#1).card := by
  classical
  rw [Host.reduce_eq_fold]
  rw [Finset.filter_true_of_mem (fun j _ => funext fun a => a.elim0)]
  have hval : ∀ j, (extui 32 flags hw j).toNat = if flags j = 1#1 then 1 else 0 :=
    fun j => StableHlo.Predicate.toNat_setWidth_bit (flags j)
  have hsum : ∑ j : (⟨1, ![n]⟩ : Shape).Idx, (extui 32 flags hw j).toNat
      = (Finset.univ.filter fun r : Fin n => flags (ix1 r) = 1#1).card := by
    simp only [hval]
    rw [← Equiv.sum_comp (idxEquiv1 (n := n)).symm, Finset.card_filter]
    rfl
  show (Finset.fold IntOp.addi 0#32 (extui 32 flags hw) Finset.univ).toNat = _
  rw [StableHlo.Predicate.toNat_fold_addi _ _
    (by rw [hsum]; exact lt_of_le_of_lt (Finset.card_le_univ _) (by simpa using hn)), hsum]

/-- A word of value `k` below 2³¹ is greater than the zero word, signed, exactly when `k` is positive. -/
private theorem sgt_zero_iff (n : BitVec 32) (k : ℕ) (hk : n.toNat = k) (hlt : k < 2 ^ 31) :
    IntOp.cmpi .sgt n 0#32 = 1#1 ↔ 0 < k := by
  rw [StableHlo.Predicate.sgt_iff_toNat (by rw [hk]; exact hlt) (by decide), hk]
  rfl

/-- The signed maximum of a word of value `k` below 2³¹ and the word 1 reads, signed, as `max k 1`. -/
private theorem maxsi_one_toInt (n : BitVec 32) (k : ℕ) (hk : n.toNat = k) (hlt : k < 2 ^ 31) :
    (IntOp.maxsi n 1#32).toInt = ((max k 1 : ℕ) : ℤ) := by
  have hn : n.toInt = (k : ℤ) := by
    rw [StableHlo.Predicate.toInt_eq_toNat_of_lt (by rw [hk]; exact hlt), hk]
  have h1 : (1#32 : BitVec 32).toInt = 1 := by decide
  unfold IntOp.maxsi
  split <;> rename_i hc <;> simp only [BitVec.slt, hn, h1, decide_eq_true_eq] at hc
  · rw [hn]; congr 1; omega
  · rw [h1]; have : max k 1 = 1 := by omega
    rw [this]; rfl

/-! ## The number of rows that count -/

/-- There are at most 16384 rows that count. -/
private theorem rRows_le : rRows x2 x3 ≤ 16384 := by
  unfold rRows
  exact (Finset.card_le_univ _).trans (by simp)

/-- The integer sum of the widened flags (`%39`) does not wrap: its value is the number of rows that count, row `r`'s
    flag being set exactly when the row counts. -/
private theorem count_toNat (i : S_.Idx) : (val_main_v39 (F := Ideal) x2 x3 i).toNat = rRows x2 x3 := by
  classical
  unfold val_main_v39 val_main_v38 val_main_c_8
  refine (count_all (by norm_num) (val_main_v9 (F := Ideal) x2 x3) _ _ _ i).trans ?_
  unfold rRows
  exact congrArg Finset.card (Finset.filter_congr fun r _ => MirlRow.flag_apply x2 x3 r)

/-- The comparison `%40`: the count is positive, as a bit. -/
private theorem pos_iff (i : S_.Idx) : val_main_v40 (F := Ideal) x2 x3 i = 1#1 ↔ 0 < rRows x2 x3 := by
  have hle := rRows_le x2 x3
  rw [val_main_v40_apply, val_main_c_9_apply]
  exact sgt_zero_iff _ _ (count_toNat x2 x3 i) (by omega)

/-- The denominator `%43`: the count floored at one, converted to the real number it is. -/
private theorem den_eq (i : S_.Idx) :
    val_main_v43 (F := Ideal) x2 x3 i = (((max (rRows x2 x3) 1 : ℕ) : ℝ) : EReal) := by
  have hle := rRows_le x2 x3
  rw [val_main_v43_apply, val_main_v42_apply, val_main_c_11_apply]
  show (((IntOp.maxsi (val_main_v39 (F := Ideal) x2 x3 i) 1#32).toInt : ℝ) : EReal) = _
  rw [maxsi_one_toInt _ _ (count_toNat x2 x3 i) (by omega), Int.cast_natCast]

/-! ## The float sum of the row losses -/

/-- The row losses (`%37`) summed over the rows. -/
private theorem sum_loss :
    ∑ j : S16384.Idx, val_main_v37 (F := Ideal) x0 x1 x2 x3 j = ∑ r : Fin 16384, rLoss x0 x1 x2 x3 r := by
  rw [← Equiv.sum_comp (idxEquiv1 (n := 16384)).symm]
  exact Finset.sum_congr rfl fun r _ => MirlRow.loss_apply x0 x1 x2 x3 r

/-- The sum `%41`, from the zero word. -/
private theorem sum41 (i : S_.Idx) :
    val_main_v41 (F := Ideal) x0 x1 x2 x3 i = ∑ r : Fin 16384, rLoss x0 x1 x2 x3 r := by
  rw [val_main_v41_apply, val_main_cst_10_apply, sum_loss, Ideal.ofBits_def, Ideal.ofBits_zero_f32, zero_add]

/-- The sum `%45`, the same sum again. -/
private theorem sum45 (i : S_.Idx) :
    val_main_v45 (F := Ideal) x0 x1 x2 x3 i = ∑ r : Fin 16384, rLoss x0 x1 x2 x3 r := by
  rw [val_main_v45_apply, val_main_cst_12_apply, sum_loss, Ideal.ofBits_def, Ideal.ofBits_zero_f32, zero_add]

/-! ## The results -/

/-- The reference's ranking loss (`%46`). -/
theorem ranking_eq : val_main_v46 (F := Ideal) x0 x1 x2 x3 = fun _ => rRanking x0 x1 x2 x3 := by
  funext i
  rw [val_main_v46_apply]
  unfold rRanking
  by_cases h : 0 < rRows x2 x3
  · rw [(pos_iff x2 x3 i).mpr h, select_one, if_pos h, val_main_v44_apply, Ideal.hostDivf_def, sum41, den_eq]
  · rw [eq_zero_of_ne_one (fun e => h ((pos_iff x2 x3 i).mp e)), select_zero, if_neg h, sum45]

/-- The reference's total (`%48`). -/
theorem total_eq : val_main_v48 (F := Ideal) x0 x1 x2 x3 = fun _ => rRanking x0 x1 x2 x3 + lambdaRej * 0 := by
  funext i
  rw [val_main_v48_apply, ranking_eq, val_main_v47_apply, val_main_cst_13_apply, val_main_cst_14_apply,
    Ideal.addf_def, Ideal.mulf_def, Ideal.ofBits_def, Ideal.ofBits_def, Ideal.ofBits_zero_f32]
  rfl

/-- The reference's rejection term. -/
theorem rej_eq : (constant S_ .f32 0x00000000#32 : FVec Ideal S_ .f32) = fun _ => 0 := by
  funext i
  exact Ideal.ofBits_zero_f32

end Cert.ReferenceIdeal.MirlTail

end
-- ==== Proof.lean ====
/-
  THE CERTIFICATE. A margin-ranking loss over scores [16384, 4096]: per row, the hinge max (margin − (p − s)) 0 of every
  negative's score s against the row's ground-truth score p, weighted, summed over the row's valid negatives and divided
  by their number; then the mean over the rows whose ground truth is in range and valid.

  The kernel program takes p, the ground-truth weight and the ground-truth validity on the host, and its body sums over
  EVERY valid column and subtracts the ground-truth column's own term (its hinge is exactly the margin); the reference
  masks that column out of the sums. Over finite scores and weights the two rows are one number (Proof/Algebra.lean),
  and so are the two means. The three frames: the kernel programs' are the generated frame certificates, the
  reference's is its run with the results dropped. The idealization rewrote nothing, so `preserves` is trivial.
-/
import proofs.«429888_j29583734735545_3_alg».proof.Defs
import proofs.«429888_j29583734735545_3_alg».proof.Proof.Gen.Kernel
import proofs.«429888_j29583734735545_3_alg».proof.Proof.Gen.Kernel.Skeleton
import proofs.«429888_j29583734735545_3_alg».proof.Proof.Gen.Kernel.Launch
import proofs.«429888_j29583734735545_3_alg».proof.Proof.Gen.Kernel.Points
import proofs.«429888_j29583734735545_3_alg».proof.Proof.Gen.Kernel.Frame
import proofs.«429888_j29583734735545_3_alg».proof.Proof.Gen.KernelIdeal
import proofs.«429888_j29583734735545_3_alg».proof.Proof.Gen.KernelIdeal.Skeleton
import proofs.«429888_j29583734735545_3_alg».proof.Proof.Gen.KernelIdeal.Launch
import proofs.«429888_j29583734735545_3_alg».proof.Proof.Gen.KernelIdeal.Points
import proofs.«429888_j29583734735545_3_alg».proof.Proof.Gen.KernelIdeal.Frame
import proofs.«429888_j29583734735545_3_alg».proof.Proof.Gen.ReferenceIdeal
import proofs.«429888_j29583734735545_3_alg».proof.Proof.Gen.Pre_finite_inputs
import proofs.«429888_j29583734735545_3_alg».proof.Proof.RefRun
import proofs.«429888_j29583734735545_3_alg».proof.Proof.RefRead
import proofs.«429888_j29583734735545_3_alg».proof.Proof.Spec
import proofs.«429888_j29583734735545_3_alg».proof.Proof.Algebra
import proofs.«429888_j29583734735545_3_alg».proof.Proof.Finite
import proofs.«429888_j29583734735545_3_alg».proof.Proof.KernelValue
import proofs.«429888_j29583734735545_3_alg».proof.Proof.RefTail
import Idealize.ShloMosaic.Adequacy
import Idealize.ShloMosaic.Init

noncomputable section

namespace Cert.Proof

open Idealize.ShloMosaic Idealize.ShloMosaic.TcCoe Idealize.SL.Sem Cert.Mirl

theorem frame_k : Cert.frame_Kernel := fun m ρ _ => Cert.Kernel.Gen.frame m ρ
theorem frame_ki : Cert.frame_KernelIdeal := fun m ρ _ => Cert.KernelIdeal.Gen.frame m ρ
/-- The reference launches no kernel: its frame is its run with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Both programs, from memories that agree on the four arguments, end with the same three numbers: the kernel's
    ranking loss is the reference's because every score and weight is finite. -/
theorem algebraic : Cert.algebraic_KernelIdeal_ReferenceIdeal := by
  intro m ρ m' ρ' hpre hagree
  refine ⟨_, _, _, Cert.KernelIdeal.MirlValue.run m ρ, ?_⟩
  refine (θ_run Cert.ReferenceIdeal.defs _ _).mono (fun _ h c => ⟨(h c).1.trans ?total, (h c).2.1.trans ?ranking,
      (h c).2.2.1.trans Cert.ReferenceIdeal.MirlTail.rej_eq, (h c).2.2.2⟩)
    (Cert.ReferenceIdeal.ValueP.run (F := Ideal) m' ρ')
  case total =>
    rw [Cert.ReferenceIdeal.ReadP.val_main_v48_eq, (hagree c).1, (hagree c).2.1, (hagree c).2.2.1, (hagree c).2.2.2,
      Cert.ReferenceIdeal.MirlTail.total_eq,
      ← kRanking_eq_rRanking _ _ _ _ (Cert.MirlFinite.finite_of_pre _ _ _ _ (hpre c))]
    rfl
  case ranking =>
    rw [Cert.ReferenceIdeal.ReadP.val_main_v46_eq, (hagree c).1, (hagree c).2.1, (hagree c).2.2.1, (hagree c).2.2.2,
      Cert.ReferenceIdeal.MirlTail.ranking_eq,
      ← kRanking_eq_rRanking _ _ _ _ (Cert.MirlFinite.finite_of_pre _ _ _ _ (hpre c))]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
